-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v31)) (v1 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_v29) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_v57) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S2x3200000 : S_.BroadcastsInDim S2x3200000 (![] : Fin 0 → Fin S2x3200000.rank)
  reducesTo_S2x3200000_S_d0_1 : S2x3200000.ReducesTo [0, 1] S_

variable [Facts]

def fn {F : FTy → Type} [FloatOps F] (main_arg0 : FVec F S100000x128 .f32) (main_arg1 : IVec S2x3200000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_c_0 : IVec S_ 32 := constantI S_ 32 0#32
  let main_v4 : IVec S2x3200000 32 := broadcastInDim S2x3200000 ![] bcast_S_S2x3200000 main_c_0
  let main_v5 : IVec S2x3200000 1 := cmpi .sge main_arg1 main_v4
  let main_c_1 : IVec S_ 32 := constantI S_ 32 100000#32
  let main_v6 : IVec S2x3200000 32 := broadcastInDim S2x3200000 ![] bcast_S_S2x3200000 main_c_1
  let main_v7 : IVec S2x3200000 1 := cmpi .slt main_arg1 main_v6
  let main_v8 : IVec S2x3200000 1 := andi main_v5 main_v7
  let main_c_2 : IVec S_ 1 := constantI S_ 1 1#1
  let main_v9 : IVec S_ 1 := (fun x v => Host.reduce IntOp.andi x v reducesTo_S2x3200000_S_d0_1 h_S_) main_v8 main_c_2
  let main_v10 : IVec S_ 1 := andi main_v3 main_v9
  main_v10
-- ==== Kernel.lean ====
abbrev S100000x128 : Shape := ⟨2, ![100000, 128]⟩
abbrev S2x3200000 : Shape := ⟨2, ![2, 3200000]⟩
abbrev S1x3200000 : Shape := ⟨2, ![1, 3200000]⟩
abbrev S3200000 : Shape := ⟨1, ![3200000]⟩
abbrev S_ : Shape := ⟨0, ![]⟩
abbrev S3199999 : Shape := ⟨1, ![3199999]⟩
abbrev S100000 : Shape := ⟨1, ![100000]⟩
abbrev S3200000x1 : Shape := ⟨2, ![3200000, 1]⟩
abbrev S100352 : Shape := ⟨1, ![100352]⟩
abbrev S784x128 : Shape := ⟨2, ![784, 128]⟩
abbrev S1 : Shape := ⟨1, ![1]⟩
abbrev S1x1 : Shape := ⟨2, ![1, 1]⟩
abbrev S1x100000 : Shape := ⟨2, ![1, 100000]⟩
abbrev S2x100000 : Shape := ⟨2, ![2, 100000]⟩
abbrev S2x3300000 : Shape := ⟨2, ![2, 3300000]⟩
abbrev S3300000 : Shape := ⟨1, ![3300000]⟩

abbrev nBuf : Space → Nat
  | .hbm => 84
  | .vmem => 2
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S1x3200000, .i32⟩
  | .hbm, ⟨3, _⟩ => ⟨S3200000, .i32⟩
  | .hbm, ⟨4, _⟩ => ⟨S1x3200000, .i32⟩
  | .hbm, ⟨5, _⟩ => ⟨S3200000, .i32⟩
  | .hbm, ⟨6, _⟩ => ⟨S_, .i32⟩
  | .hbm, ⟨7, _⟩ => ⟨S3200000, .i32⟩
  | .hbm, ⟨8, _⟩ => ⟨S3200000, .i32⟩
  | .hbm, ⟨9, _⟩ => ⟨S3200000, .i32⟩
  | .hbm, ⟨10, _⟩ => ⟨S3200000, .i32⟩
  | .hbm, ⟨11, _⟩ => ⟨S3200000, .i32⟩
  | .hbm, ⟨12, _⟩ => ⟨S3199999, .i32⟩
  | .hbm, ⟨13, _⟩ => ⟨S3199999, .i32⟩
  | .hbm, ⟨14, _⟩ => ⟨S3199999, .i1⟩
  | .hbm, ⟨15, _⟩ => ⟨S3199999, .i32⟩
  | .hbm, ⟨16, _⟩ => ⟨S_, .i32⟩
  | .hbm, ⟨17, _⟩ => ⟨S_, .i32⟩
  | .hbm, ⟨18, _⟩ => ⟨S3200000, .i32⟩
  | .hbm, ⟨19, _⟩ => ⟨S_, .i32⟩
  | .hbm, ⟨20, _⟩ => ⟨S100000, .i32⟩
  | .hbm, ⟨21, _⟩ => ⟨S3200000x1, .i32⟩
  | .hbm, ⟨22, _⟩ => ⟨S100000, .i32⟩
  | .hbm, ⟨23, _⟩ => ⟨S_, .i32⟩
  | .hbm, ⟨24, _⟩ => ⟨S_, .i32⟩
  | .hbm, ⟨25, _⟩ => ⟨S100352, .i32⟩
  | .hbm, ⟨26, _⟩ => ⟨S784x128, .i32⟩
  | .hbm, ⟨27, _⟩ => ⟨S784x128, .f32⟩
  | .hbm, ⟨28, _⟩ => ⟨S100352, .f32⟩
  | .hbm, ⟨29, _⟩ => ⟨S100000, .f32⟩
  | .hbm, ⟨30, _⟩ => ⟨S_, .i32⟩
  | .hbm, ⟨31, _⟩ => ⟨S3200000, .i32⟩
  | .hbm, ⟨32, _⟩ => ⟨S3200000, .i1⟩
  | .hbm, ⟨33, _⟩ => ⟨S_, .i32⟩
  | .hbm, ⟨34, _⟩ => ⟨S3200000, .i32⟩
  | .hbm, ⟨35, _⟩ => ⟨S3200000, .i32⟩
  | .hbm, ⟨36, _⟩ => ⟨S3200000, .i32⟩
  | .hbm, ⟨37, _⟩ => ⟨S3200000x1, .i32⟩
  | .hbm, ⟨38, _⟩ => ⟨S1, .i32⟩
  | .hbm, ⟨39, _⟩ => ⟨S_, .i32⟩
  | .hbm, ⟨40, _⟩ => ⟨S3200000x1, .i32⟩
  | .hbm, ⟨41, _⟩ => ⟨S3200000x1, .i1⟩
  | .hbm, ⟨42, _⟩ => ⟨S1x1, .i32⟩
  | .hbm, ⟨43, _⟩ => ⟨S3200000x1, .i32⟩
  | .hbm, ⟨44, _⟩ => ⟨S3200000x1, .i1⟩
  | .hbm, ⟨45, _⟩ => ⟨S3200000x1, .i1⟩
  | .hbm, ⟨46, _⟩ => ⟨S_, .i1⟩
  | .hbm, ⟨47, _⟩ => ⟨S3200000, .i1⟩
  | .hbm, ⟨48, _⟩ => ⟨S3200000, .f32⟩
  | .hbm, ⟨49, _⟩ => ⟨S_, .f32⟩
  | .hbm, ⟨50, _⟩ => ⟨S3200000, .f32⟩
  | .hbm, ⟨51, _⟩ => ⟨S3200000, .f32⟩
  | .hbm, ⟨52, _⟩ => ⟨S_, .i32⟩
  | .hbm, ⟨53, _⟩ => ⟨S3200000, .i32⟩
  | .hbm, ⟨54, _⟩ => ⟨S3200000, .i1⟩
  | .hbm, ⟨55, _⟩ => ⟨S_, .i32⟩
  | .hbm, ⟨56, _⟩ => ⟨S3200000, .i32⟩
  | .hbm, ⟨57, _⟩ => ⟨S3200000, .i32⟩
  | .hbm, ⟨58, _⟩ => ⟨S3200000, .i32⟩
  | .hbm, ⟨59, _⟩ => ⟨S3200000x1, .i32⟩
  | .hbm, ⟨60, _⟩ => ⟨S1, .i32⟩
  | .hbm, ⟨61, _⟩ => ⟨S_, .i32⟩
  | .hbm, ⟨62, _⟩ => ⟨S3200000x1, .i32⟩
  | .hbm, ⟨63, _⟩ => ⟨S3200000x1, .i1⟩
  | .hbm, ⟨64, _⟩ => ⟨S1x1, .i32⟩
  | .hbm, ⟨65, _⟩ => ⟨S3200000x1, .i32⟩
  | .hbm, ⟨66, _⟩ => ⟨S3200000x1, .i1⟩
  | .hbm, ⟨67, _⟩ => ⟨S3200000x1, .i1⟩
  | .hbm, ⟨68, _⟩ => ⟨S_, .i1⟩
  | .hbm, ⟨69, _⟩ => ⟨S3200000, .i1⟩
  | .hbm, ⟨70, _⟩ => ⟨S3200000, .f32⟩
  | .hbm, ⟨71, _⟩ => ⟨S_, .f32⟩
  | .hbm, ⟨72, _⟩ => ⟨S3200000, .f32⟩
  | .hbm, ⟨73, _⟩ => ⟨S3200000, .f32⟩
  | .hbm, ⟨74, _⟩ => ⟨S3200000, .f32⟩
  | .hbm, ⟨75, _⟩ => ⟨S3200000, .f32⟩
  | .hbm, ⟨76, _⟩ => ⟨S100000, .i32⟩
  | .hbm, ⟨77, _⟩ => ⟨S1x100000, .i32⟩
  | .hbm, ⟨78, _⟩ => ⟨S1x100000, .i32⟩
  | .hbm, ⟨79, _⟩ => ⟨S2x100000, .i32⟩
  | .hbm, ⟨80, _⟩ => ⟨S2x3300000, .i32⟩
  | .hbm, ⟨81, _⟩ => ⟨S_, .f32⟩
  | .hbm, ⟨82, _⟩ => ⟨S100000, .f32⟩
  | .hbm, ⟨83, _⟩ => ⟨S3300000, .f32⟩
  | .local _ .vmem, ⟨0, _⟩ => ⟨S784x128, .i32⟩
  | .local _ .vmem, ⟨1, _⟩ => ⟨S784x128, .f32⟩
  | _, _ => ⟨S100000x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7_0 : Ref sig .tc := ⟨.hbm, 10, rfl⟩
abbrev main_v7_1 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_c_0 : Ref sig .tc := ⟨.hbm, 16, rfl⟩
abbrev main_call0_v0 : Ref sig .tc := ⟨.hbm, 17, rfl⟩
abbrev main_v12 : Ref sig .tc := ⟨.hbm, 18, rfl⟩
abbrev main_c_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c_2 : Ref sig .tc := ⟨.hbm, 23, rfl⟩
abbrev main_call1_v0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_call2_c : Ref sig .tc := ⟨.hbm, 30, rfl⟩
abbrev main_call2_v0 : Ref sig .tc := ⟨.hbm, 31, rfl⟩
abbrev main_call2_v1 : Ref sig .tc := ⟨.hbm, 32, rfl⟩
abbrev main_call2_c_0 : Ref sig .tc := ⟨.hbm, 33, rfl⟩
abbrev main_call2_v2 : Ref sig .tc := ⟨.hbm, 34, rfl⟩
abbrev main_call2_v3 : Ref sig .tc := ⟨.hbm, 35, rfl⟩
abbrev main_call2_v4 : Ref sig .tc := ⟨.hbm, 36, rfl⟩
abbrev main_call2_v5 : Ref sig .tc := ⟨.hbm, 37, rfl⟩
abbrev main_call2_c_1 : Ref sig .tc := ⟨.hbm, 38, rfl⟩
abbrev main_call2_c_2 : Ref sig .tc := ⟨.hbm, 39, rfl⟩
abbrev main_call2_v6 : Ref sig .tc := ⟨.hbm, 40, rfl⟩
abbrev main_call2_v7 : Ref sig .tc := ⟨.hbm, 41, rfl⟩
abbrev main_call2_v8 : Ref sig .tc := ⟨.hbm, 42, rfl⟩
abbrev main_call2_v9 : Ref sig .tc := ⟨.hbm, 43, rfl⟩
abbrev main_call2_v10 : Ref sig .tc := ⟨.hbm, 44, rfl⟩
abbrev main_call2_v11 : Ref sig .tc := ⟨.hbm, 45, rfl⟩
abbrev main_call2_c_3 : Ref sig .tc := ⟨.hbm, 46, rfl⟩
abbrev main_call2_v12 : Ref sig .tc := ⟨.hbm, 47, rfl⟩
abbrev main_call2_v13 : Ref sig .tc := ⟨.hbm, 48, rfl⟩
abbrev main_call2_cst : Ref sig .tc := ⟨.hbm, 49, rfl⟩
abbrev main_call2_v14 : Ref sig .tc := ⟨.hbm, 50, rfl⟩
abbrev main_v21 : Ref sig .tc := ⟨.hbm, 51, rfl⟩
abbrev main_call3_c : Ref sig .tc := ⟨.hbm, 52, rfl⟩
abbrev main_call3_v0 : Ref sig .tc := ⟨.hbm, 53, rfl⟩
abbrev main_call3_v1 : Ref sig .tc := ⟨.hbm, 54, rfl⟩
abbrev main_call3_c_0 : Ref sig .tc := ⟨.hbm, 55, rfl⟩
abbrev main_call3_v2 : Ref sig .tc := ⟨.hbm, 56, rfl⟩
abbrev main_call3_v3 : Ref sig .tc := ⟨.hbm, 57, rfl⟩
abbrev main_call3_v4 : Ref sig .tc := ⟨.hbm, 58, rfl⟩
abbrev main_call3_v5 : Ref sig .tc := ⟨.hbm, 59, rfl⟩
abbrev main_call3_c_1 : Ref sig .tc := ⟨.hbm, 60, rfl⟩
abbrev main_call3_c_2 : Ref sig .tc := ⟨.hbm, 61, rfl⟩
abbrev main_call3_v6 : Ref sig .tc := ⟨.hbm, 62, rfl⟩
abbrev main_call3_v7 : Ref sig .tc := ⟨.hbm, 63, rfl⟩
abbrev main_call3_v8 : Ref sig .tc := ⟨.hbm, 64, rfl⟩
abbrev main_call3_v9 : Ref sig .tc := ⟨.hbm, 65, rfl⟩
abbrev main_call3_v10 : Ref sig .tc := ⟨.hbm, 66, rfl⟩
abbrev main_call3_v11 : Ref sig .tc := ⟨.hbm, 67, rfl⟩
abbrev main_call3_c_3 : Ref sig .tc := ⟨.hbm, 68, rfl⟩
abbrev main_call3_v12 : Ref sig .tc := ⟨.hbm, 69, rfl⟩
abbrev main_call3_v13 : Ref sig .tc := ⟨.hbm, 70, rfl⟩
abbrev main_call3_cst : Ref sig .tc := ⟨.hbm, 71, rfl⟩
abbrev main_call3_v14 : Ref sig .tc := ⟨.hbm, 72, rfl⟩
abbrev main_v22 : Ref sig .tc := ⟨.hbm, 73, rfl⟩
abbrev main_v23 : Ref sig .tc := ⟨.hbm, 74, rfl⟩
abbrev main_v24 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_v29 : Ref sig .tc := ⟨.hbm, 80, rfl⟩
abbrev main_cst : Ref sig .tc := ⟨.hbm, 81, rfl⟩
abbrev main_v30 : Ref sig .tc := ⟨.hbm, 82, rfl⟩
abbrev main_v31 : Ref sig .tc := ⟨.hbm, 83, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S784x128 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S784x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  slices_S3200000_S3199999_1 : S3200000.Slices ![1] S3199999
  slices_S3200000_S3199999_0 : S3200000.Slices ![0] S3199999
  natLt_1_32 : 1 < 32
  pads_S3199999_S3200000_100 : S3199999.Pads (![1] : Fin 1 → Nat) ![0] ![0] S3200000
  h_S_ : 0 < S_.numel
  bcast_S_S100000 : S_.BroadcastsInDim S100000 (![] : Fin 0 → Fin S100000.rank)
  bcast_S3200000_S3200000x1_0 : S3200000.BroadcastsInDim S3200000x1 (![0] : Fin 1 → Fin S3200000x1.rank)
  pads_S100000_S100352_03520 : S100000.Pads (![0] : Fin 1 → Nat) ![352] ![0] S100352
  shapeCasts_S100352_S784x128 : S100352.ShapeCasts S784x128
  inb_S784x128_S784x128_0_0 : ∀ a, (![0, 0] : Fin 2 → Nat) a + S784x128.size a ≤ S784x128.size a
  h_S784x128 : 0 < S784x128.numel
  shapeCasts_S784x128_S784x128 : S784x128.ShapeCasts S784x128
  shapeCasts_S784x128_S100352 : S784x128.ShapeCasts S100352
  slices_S100352_S100000_0 : S100352.Slices ![0] S100000
  bcast_S_S3200000x1 : S_.BroadcastsInDim S3200000x1 (![] : Fin 0 → Fin S3200000x1.rank)
  bcast_S1_S1x1_1 : S1.BroadcastsInDim S1x1 (![1] : Fin 1 → Fin S1x1.rank)
  bcast_S1x1_S3200000x1_0_1 : S1x1.BroadcastsInDim S3200000x1 (![0, 1] : Fin 2 → Fin S3200000x1.rank)
  reducesTo_S3200000x1_S3200000_d1 : S3200000x1.ReducesTo [1] S3200000
  bcast_S100000_S1x100000_1 : S100000.BroadcastsInDim S1x100000 (![1] : Fin 1 → Fin S1x100000.rank)
  concatenates_S1x100000_S1x100000_S2x100000_d0 : Shape.Concatenates [S1x100000, S1x100000] S2x100000 0
  concatenates_S2x100000_S2x3200000_S2x3300000_d1 : Shape.Concatenates [S2x100000, S2x3200000] S2x3300000 1
  concatenates_S100000_S3200000_S3300000_d0 : Shape.Concatenates [S100000, S3200000] S3300000 0
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S784x128.size a ≤ S784x128.size a
  hwx0_0 : ∀ i : grid0.Coords, EltTy.bits .i32 = 32 ∨ (Rect.block (s := S784x128) S784x128.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S784x128.size a ≤ S784x128.size a
  hwx0_1 : ∀ i : grid0.Coords, EltTy.bits .f32 = 32 ∨ (Rect.block (s := S784x128) S784x128.size (cc0_transform_1 i) (hinb0_1 i)).WholeWords (EltTy.packing .f32)

variable [Facts₀]

def comparator_i32_i32_d0 : BitVec 32 × BitVec 32 → BitVec 32 × BitVec 32 → BitVec 1 :=
  fun l r =>
    let v32 := IntOp.cmpi .slt l.1 r.1
    v32
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf

abbrev win0_0 : Pipeline.Window sig grid0 :=
  Pipeline.Window.ofSpec (Memref.whole main_v17) S784x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v18) S784x128.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S1 : Shape := ⟨1, ![1]⟩
abbrev S3199999 : Shape := ⟨1, ![3199999]⟩
abbrev S100000 : Shape := ⟨1, ![100000]⟩
abbrev S1x100000 : Shape := ⟨2, ![1, 100000]⟩
abbrev S2x100000 : Shape := ⟨2, ![2, 100000]⟩
abbrev S2x3300000 : Shape := ⟨2, ![2, 3300000]⟩
abbrev S3300000 : Shape := ⟨1, ![3300000]⟩

abbrev nBuf : Space → Nat
  | .hbm => 82
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S1x3200000, .i32⟩
  | .hbm, ⟨3, _⟩ => ⟨S3200000, .i32⟩
  | .hbm, ⟨4, _⟩ => ⟨S1x3200000, .i32⟩
  | .hbm, ⟨5, _⟩ => ⟨S3200000, .i32⟩
  | .hbm, ⟨6, _⟩ => ⟨S_, .i32⟩
  | .hbm, ⟨7, _⟩ => ⟨S3200000, .i32⟩
  | .hbm, ⟨8, _⟩ => ⟨S3200000, .i32⟩
  | .hbm, ⟨9, _⟩ => ⟨S3200000, .i32⟩
  | .hbm, ⟨10, _⟩ => ⟨S3200000, .i32⟩
  | .hbm, ⟨11, _⟩ => ⟨S3200000, .i32⟩
  | .hbm, ⟨12, _⟩ => ⟨S3200000, .i32⟩
  | .hbm, ⟨13, _⟩ => ⟨S_, .i32⟩
  | .hbm, ⟨14, _⟩ => ⟨S3200000, .i32⟩
  | .hbm, ⟨15, _⟩ => ⟨S3200000, .i1⟩
  | .hbm, ⟨16, _⟩ => ⟨S_, .i32⟩
  | .hbm, ⟨17, _⟩ => ⟨S3200000, .i32⟩
  | .hbm, ⟨18, _⟩ => ⟨S3200000, .i32⟩
  | .hbm, ⟨19, _⟩ => ⟨S3200000, .i32⟩
  | .hbm, ⟨20, _⟩ => ⟨S3200000x1, .i32⟩
  | .hbm, ⟨21, _⟩ => ⟨S3200000, .i32⟩
  | .hbm, ⟨22, _⟩ => ⟨S_, .i32⟩
  | .hbm, ⟨23, _⟩ => ⟨S1, .i32⟩
  | .hbm, ⟨24, _⟩ => ⟨S3199999, .i32⟩
  | .hbm, ⟨25, _⟩ => ⟨S3199999, .i32⟩
  | .hbm, ⟨26, _⟩ => ⟨S3199999, .i1⟩
  | .hbm, ⟨27, _⟩ => ⟨S3199999, .i32⟩
  | .hbm, ⟨28, _⟩ => ⟨S3200000, .i32⟩
  | .hbm, ⟨29, _⟩ => ⟨S_, .i32⟩
  | .hbm, ⟨30, _⟩ => ⟨S3200000, .i32⟩
  | .hbm, ⟨31, _⟩ => ⟨S3200000, .i1⟩
  | .hbm, ⟨32, _⟩ => ⟨S_, .i32⟩
  | .hbm, ⟨33, _⟩ => ⟨S3200000, .i32⟩
  | .hbm, ⟨34, _⟩ => ⟨S3200000, .i32⟩
  | .hbm, ⟨35, _⟩ => ⟨S3200000, .i32⟩
  | .hbm, ⟨36, _⟩ => ⟨S3200000x1, .i32⟩
  | .hbm, ⟨37, _⟩ => ⟨S3200000, .i32⟩
  | .hbm, ⟨38, _⟩ => ⟨S_, .i32⟩
  | .hbm, ⟨39, _⟩ => ⟨S100000, .i32⟩
  | .hbm, ⟨40, _⟩ => ⟨S3200000x1, .i32⟩
  | .hbm, ⟨41, _⟩ => ⟨S100000, .i32⟩
  | .hbm, ⟨42, _⟩ => ⟨S100000, .f32⟩
  | .hbm, ⟨43, _⟩ => ⟨S_, .i32⟩
  | .hbm, ⟨44, _⟩ => ⟨S100000, .i32⟩
  | .hbm, ⟨45, _⟩ => ⟨S100000, .i1⟩
  | .hbm, ⟨46, _⟩ => ⟨S_, .f32⟩
  | .hbm, ⟨47, _⟩ => ⟨S100000, .f32⟩
  | .hbm, ⟨48, _⟩ => ⟨S100000, .f32⟩
  | .hbm, ⟨49, _⟩ => ⟨S100000, .f32⟩
  | .hbm, ⟨50, _⟩ => ⟨S_, .f32⟩
  | .hbm, ⟨51, _⟩ => ⟨S_, .f32⟩
  | .hbm, ⟨52, _⟩ => ⟨S100000, .f32⟩
  | .hbm, ⟨53, _⟩ => ⟨S100000, .f32⟩
  | .hbm, ⟨54, _⟩ => ⟨S_, .i32⟩
  | .hbm, ⟨55, _⟩ => ⟨S3200000, .i32⟩
  | .hbm, ⟨56, _⟩ => ⟨S3200000, .i1⟩
  | .hbm, ⟨57, _⟩ => ⟨S_, .i32⟩
  | .hbm, ⟨58, _⟩ => ⟨S3200000, .i32⟩
  | .hbm, ⟨59, _⟩ => ⟨S3200000, .i32⟩
  | .hbm, ⟨60, _⟩ => ⟨S3200000, .i32⟩
  | .hbm, ⟨61, _⟩ => ⟨S3200000x1, .i32⟩
  | .hbm, ⟨62, _⟩ => ⟨S3200000, .f32⟩
  | .hbm, ⟨63, _⟩ => ⟨S_, .i32⟩
  | .hbm, ⟨64, _⟩ => ⟨S3200000, .i32⟩
  | .hbm, ⟨65, _⟩ => ⟨S3200000, .i1⟩
  | .hbm, ⟨66, _⟩ => ⟨S_, .i32⟩
  | .hbm, ⟨67, _⟩ => ⟨S3200000, .i32⟩
  | .hbm, ⟨68, _⟩ => ⟨S3200000, .i32⟩
  | .hbm, ⟨69, _⟩ => ⟨S3200000, .i32⟩
  | .hbm, ⟨70, _⟩ => ⟨S3200000x1, .i32⟩
  | .hbm, ⟨71, _⟩ => ⟨S3200000, .f32⟩
  | .hbm, ⟨72, _⟩ => ⟨S3200000, .f32⟩
  | .hbm, ⟨73, _⟩ => ⟨S100000, .i32⟩
  | .hbm, ⟨74, _⟩ => ⟨S1x100000, .i32⟩
  | .hbm, ⟨75, _⟩ => ⟨S1x100000, .i32⟩
  | .hbm, ⟨76, _⟩ => ⟨S2x100000, .i32⟩
  | .hbm, ⟨77, _⟩ => ⟨S2x3300000, .i32⟩
  | .hbm, ⟨78, _⟩ => ⟨S_, .f32⟩
  | .hbm, ⟨79, _⟩ => ⟨S100000, .f32⟩
  | .hbm, ⟨80, _⟩ => ⟨S3200000, .f32⟩
  | .hbm, ⟨81, _⟩ => ⟨S3300000, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_call0_v0 : Ref sig .tc := ⟨.hbm, 10, rfl⟩
abbrev main_call0_v1_0 : Ref sig .tc := ⟨.hbm, 11, rfl⟩
abbrev main_v7 : Ref sig .tc := ⟨.hbm, 12, rfl⟩
abbrev main_c_0 : Ref sig .tc := ⟨.hbm, 13, rfl⟩
abbrev main_v8 : Ref sig .tc := ⟨.hbm, 14, rfl⟩
abbrev main_v9 : Ref sig .tc := ⟨.hbm, 15, rfl⟩
abbrev main_c_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c_3 : Ref sig .tc := ⟨.hbm, 29, rfl⟩
abbrev main_v21 : Ref sig .tc := ⟨.hbm, 30, rfl⟩
abbrev main_v22 : Ref sig .tc := ⟨.hbm, 31, rfl⟩
abbrev main_c_4 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_c_5 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_c_6 : Ref sig .tc := ⟨.hbm, 43, rfl⟩
abbrev main_v32 : Ref sig .tc := ⟨.hbm, 44, rfl⟩
abbrev main_v33 : Ref sig .tc := ⟨.hbm, 45, rfl⟩
abbrev main_cst : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_call1_v0 : Ref sig .tc := ⟨.hbm, 51, rfl⟩
abbrev main_call1_v1 : Ref sig .tc := ⟨.hbm, 52, rfl⟩
abbrev main_v37 : Ref sig .tc := ⟨.hbm, 53, rfl⟩
abbrev main_c_8 : Ref sig .tc := ⟨.hbm, 54, rfl⟩
abbrev main_v38 : Ref sig .tc := ⟨.hbm, 55, rfl⟩
abbrev main_v39 : Ref sig .tc := ⟨.hbm, 56, rfl⟩
abbrev main_c_9 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_c_10 : Ref sig .tc := ⟨.hbm, 63, rfl⟩
abbrev main_v45 : Ref sig .tc := ⟨.hbm, 64, rfl⟩
abbrev main_v46 : Ref sig .tc := ⟨.hbm, 65, rfl⟩
abbrev main_c_11 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_12 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S1 : S_.BroadcastsInDim S1 (![] : Fin 0 → Fin S1.rank)
  slices_S3200000_S3199999_1 : S3200000.Slices ![1] S3199999
  slices_S3200000_S3199999_0 : S3200000.Slices ![0] S3199999
  natLt_1_32 : 1 < 32
  concatenates_S1_S3199999_S3200000_d0 : Shape.Concatenates [S1, S3199999] S3200000 0
  bcast_S_S100000 : S_.BroadcastsInDim S100000 (![] : Fin 0 → Fin S100000.rank)
  bcast_S100000_S1x100000_1 : S100000.BroadcastsInDim S1x100000 (![1] : Fin 1 → Fin S1x100000.rank)
  concatenates_S1x100000_S1x100000_S2x100000_d0 : Shape.Concatenates [S1x100000, S1x100000] S2x100000 0
  concatenates_S2x100000_S2x3200000_S2x3300000_d1 : Shape.Concatenates [S2x100000, S2x3200000] S2x3300000 1
  concatenates_S100000_S3200000_S3300000_d0 : Shape.Concatenates [S100000, S3200000] S3300000 0
  gather_S3200000_S3200000x1_S3200000_n_0_n_n_0_1_1_wf : GatherDims.WF S3200000 S3200000x1 S3200000 [] [0] [] [0] [] 1 ![1]
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]

variable [Facts₀]

def comparator_i32_i32_d0 : BitVec 32 × BitVec 32 → BitVec 32 × BitVec 32 → BitVec 1 :=
  fun l r =>
    let v2 := IntOp.cmpi .slt l.1 r.1
    v2
def gather_S3200000_S3200000x1_S3200000_n_0_n_n_0_1_1 : GatherDims S3200000 S3200000x1 S3200000 where
  offsetDims := []
  collapsedSliceDims := [0]
  operandBatchingDims := []
  startIndicesBatchingDims := []
  startIndexMap := [0]
  indexVectorDim := 1
  sliceSizes := ![1]
  wf := gather_S3200000_S3200000x1_S3200000_n_0_n_n_0_1_1_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf

class Facts : Prop extends Facts₀ where

variable [Facts]
-- ==== Proof.KernelTerm.lean ====
/-
  The kernel program's host side, stage by stage, as pure functions: the edge endpoints, the sort key, the sorted
  keys and the rows carried with them, the "first of its run" flags, the degree by a scatter-add, its padding and
  re-laying for the pallas_call; after the call the cut back to the node count, the two takes with their
  out-of-range fill, and the two results.
-/
import proofs.«408142_j59356448031141_3_alg».proof.Proof.Gen.KernelIdeal

noncomputable section

namespace Cert.KernelIdeal.Stage

open Cert.KernelIdeal Cert.KernelIdeal.Gen Idealize.ShloMosaic

variable {F : FTy → Type} [FloatOps F]

/-- Row 0 of the edge array: the source node of each edge. -/
def row (A : IVec S2x3200000 32) : IVec S3200000 32 :=
  shapeCast S3200000 (extractStridedSlice S1x3200000 ![0, 0] A slices_S2x3200000_S1x3200000_0_0) shapeCasts_S1x3200000_S3200000
/-- Row 1: the target node. -/
def col (A : IVec S2x3200000 32) : IVec S3200000 32 :=
  shapeCast S3200000 (extractStridedSlice S1x3200000 ![1, 0] A slices_S2x3200000_S1x3200000_1_0) shapeCasts_S1x3200000_S3200000
/-- The combined key `row · 100000 + col` (32-bit words, wrapping). -/
def keys (A : IVec S2x3200000 32) : IVec S3200000 32 :=
  addi (muli (row A) (broadcastInDim S3200000 ![] bcast_S_S3200000 (constantI S_ 32 100000#32))) (col A)
/-- The keys in stable sorted order, -/
def sortedKeys (A : IVec S2x3200000 32) : IVec S3200000 32 :=
  (Host.sort2 S3200000 0 comparator_i32_i32_d0 (keys A) (row A)).1
/-- and the rows carried through the same sort. -/
def sortedRows (A : IVec S2x3200000 32) : IVec S3200000 32 :=
  (Host.sort2 S3200000 0 comparator_i32_i32_d0 (keys A) (row A)).2
/-- 1 where a sorted key differs from its predecessor (positions 1 … 3199999), as 32-bit words. -/
def neq (A : IVec S2x3200000 32) : IVec S3199999 32 :=
  extui 32 (cmpi .ne (extractStridedSlice S3199999 ![1] (sortedKeys A) slices_S3200000_S3199999_1)
    (extractStridedSlice S3199999 ![0] (sortedKeys A) slices_S3200000_S3199999_0)) natLt_1_32
/-- Those flags with a 1 padded in front for position 0. -/
def isFirst (A : IVec S2x3200000 32) : IVec S3200000 32 :=
  pad S3200000 ![1] ![0] ![0] (neq A) (id (constantI S_ 32 1#32)) pads_S3199999_S3200000_100 h_S_
/-- The number of distinct edges leaving each node: the flags summed into their rows. -/
def deg (A : IVec S2x3200000 32) : IVec S100000 32 :=
  Host.scatter scatter_S100000_S3200000x1_S3200000_n_0_0_1 IntOp.addi
    (broadcastInDim S100000 ![] bcast_S_S100000 (constantI S_ 32 0#32))
    (broadcastInDim S3200000x1 ![0] bcast_S3200000_S3200000x1_0 (sortedRows A)) (isFirst A)
/-- Padded with zeros to 100352 entries and laid out 784 × 128: what the pallas_call reads. -/
def degPad (A : IVec S2x3200000 32) : IVec S784x128 32 :=
  shapeCast S784x128 (pad S100352 ![0] ![352] ![0] (deg A) (id (constantI S_ 32 0#32)) pads_S100000_S100352_03520 h_S_)
    shapeCasts_S100352_S784x128
/-- The pallas_call's 784 × 128 result flattened and cut back to the 100000 nodes. -/
def dis (o : FVec F S784x128 .f32) : FVec F S100000 .f32 :=
  extractStridedSlice S100000 ![0] (shapeCast S100352 o shapeCasts_S784x128_S100352) slices_S100352_S100000_0
/-- A negative index counted from the end: `ix < 0 ? ix + 100000 : ix`, as a column of start indices. -/
def wrapCol (ix : IVec S3200000 32) : IVec S3200000x1 32 :=
  broadcastInDim S3200000x1 ![0] bcast_S3200000_S3200000x1_0
    (select (cmpi .slt ix (broadcastInDim S3200000 ![] bcast_S_S3200000 (constantI S_ 32 0#32)))
      (addi ix (broadcastInDim S3200000 ![] bcast_S_S3200000 (constantI S_ 32 100000#32))) ix)
/-- The in-range test of the take: `0 ≤ i ≤ 99999` on the wrapped index. -/
def inRange (ix : IVec S3200000 32) : IVec S3200000 1 :=
  Host.reduce IntOp.andi
    (andi (cmpi .sge (wrapCol ix) (broadcastInDim S3200000x1 ![] bcast_S_S3200000x1 (constantI S_ 32 0#32)))
      (cmpi .sle (wrapCol ix) (broadcastInDim S3200000x1 ![0, 1] bcast_S1x1_S3200000x1_0_1
        (broadcastInDim S1x1 ![1] bcast_S1_S1x1_1 (constantI S1 32 99999#32)))))
    (constantI S_ 1 1#1) reducesTo_S3200000x1_S3200000_d1 h_S_
/-- The take with fill: the table at the wrapped index where that is in range, the fill pattern elsewhere. -/
def take (d : FVec F S100000 .f32) (ix : IVec S3200000 32) : FVec F S3200000 .f32 :=
  select (inRange ix) (Host.gather gather_S100000_S3200000x1_S3200000_n_0_n_n_0_1_1 d (wrapCol ix))
    (broadcastInDim S3200000 ![] bcast_S_S3200000 (constant S_ .f32 0x7FC00000#32))
/-- The values result: 100000 ones, then minus the product of the two takes, edge by edge. -/
def out0 (o : FVec F S784x128 .f32) (r cl : IVec S3200000 32) : FVec F S3300000 .f32 :=
  concatenate S3300000 0
    [⟨S100000, broadcastInDim S100000 ![] bcast_S_S100000 (constant S_ .f32 0x3F800000#32)⟩,
     ⟨S3200000, Host.negf (mulf (take (dis o) r) (take (dis o) cl))⟩]
    concatenates_S100000_S3200000_S3300000_d0
/-- The indices result: the diagonal (i, i), then the edge array. -/
def out1 (A : IVec S2x3200000 32) : IVec S2x3300000 32 :=
  concatenate S2x3300000 1
    [⟨S2x100000, concatenate S2x100000 0
        [⟨S1x100000, broadcastInDim S1x100000 ![1] bcast_S100000_S1x100000_1 (iotaInDim S100000 32 0)⟩,
         ⟨S1x100000, broadcastInDim S1x100000 ![1] bcast_S100000_S1x100000_1 (iotaInDim S100000 32 0)⟩]
        concatenates_S1x100000_S1x100000_S2x100000_d0⟩,
     ⟨S2x3200000, A⟩]
    concatenates_S2x100000_S2x3200000_S2x3300000_d1

end Cert.KernelIdeal.Stage

end
-- ==== Proof.KernelValue.lean ====
/-
  The pallas_call's result array. The kernel has ONE grid point and its two windows are whole arrays (784 × 128), so what the
  single point writes back is the whole output array: the body's arithmetic, element by element, of the whole input array as the
  region finds it.
-/
import proofs.«408142_j59356448031141_3_alg».proof.Proof.Gen.KernelIdeal.Frame
import Idealize.ShloMosaic.Lib.Pipeline.Value

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

theorem zero_offsets : (![0, 0] : Fin 2 → Nat) = fun _ => 0 := funext fun a => by fin_cases a <;> rfl

/-- The body's arithmetic on one degree word: `w > 0 ? rsqrt (max (w, 1)) : 0`. -/
def elemF (w : BitVec 32) : F .f32 :=
  Scalar.select (IntOp.cmpi .sgt w 0#32)
    (FloatOps.rsqrt (FloatOps.maximumf (FloatOps.sitofp .f32 w) (Scalar.ofBits .f32 0x3F800000#32)))
    (Scalar.ofBits .f32 0x00000000#32)

/-- The body's payload is that arithmetic element by element (its one shape cast is of a shape onto itself). -/
theorem pay_pointwise (v : Vec F S784x128 .i32) : k0_pay1 v = fun i => elemF (F := F) (v i) := by
  unfold k0_pay1
  simp only [shapeCast_self]
  rfl

/-- Both windows sit at block (0, 0) at the one grid point. -/
theorem idx_zero : ∀ t : Fin cfg0.N, win0_0.index t (0 : Fin 2) = 0 ∧ win0_0.index t (1 : Fin 2) = 0
    ∧ win0_1.index t (0 : Fin 2) = 0 ∧ win0_1.index t (1 : Fin 2) = 0 :=
  (by decide +kernel : ∀ t : Fin grid0.N, _)

/-- At any point, for ANY contents `a` of the input array: the body's stores over the input block, cut to the output block, are
    the payload of the whole of `a` read through the output block (both blocks are the whole 784 × 128 array). -/
theorem core (a : Vec F S784x128 .i32) (t : Fin cfg0.N) :
    (cfg0.win 1).cut (grid0.coords t) (out0_1 (((cfg0.win 0).blk t).view.read (Elt F) a))
      = ((cfg0.win 1).blk t).view.read (Elt F) (k0_pay1 a) := by
  unfold out0_1
  rw [View.canon_unit_zero zero_offsets]
  simp only [View.ld_unit_zero (S := S784x128) zero_offsets]
  rw [pay_pointwise, pay_pointwise]
  obtain ⟨e0, e1, e2, e3⟩ := idx_zero t
  funext j
  show elemF (F := F) (a (((cfg0.win 0).blk t).view.emb j)) = elemF (F := F) (a (((cfg0.win 1).blk t).view.emb j))
  have h0 : ((cfg0.win 0).blk t).view.emb j = ((cfg0.win 1).blk t).view.emb j := by
    funext b; apply Fin.ext
    match b with
    | ⟨0, _⟩ => show win0_0.index t (0 : Fin 2) * 784 + 1 * (j 0).val = win0_1.index t (0 : Fin 2) * 784 + 1 * (j 0).val; omega
    | ⟨1, _⟩ => show win0_0.index t (1 : Fin 2) * 128 + 1 * (j 1).val = win0_1.index t (1 : Fin 2) * 128 + 1 * (j 1).val; omega
  rw [h0]

/-- What the one point writes back is the payload of the whole input array, read through the (whole) output block. -/
theorem flushed_eq (c : Dev nD) (t : Fin cfg0.N) :
    (dats m 0 c).flushed 1 t = ((cfg0.win 1).blk t).view.read (Elt F) (k0_pay1 (V m c (Pipeline.arrRef spec0 0))) := by
  show (cfg0.win 1).cut (grid0.coords t) ((dats m 0 c).after 1 t) = _
  rw [after0_1]
  unfold iblk
  exact core (V m c (Pipeline.arrRef spec0 0)) t

theorem mem_blk (t : Fin cfg0.N) (i : S784x128.Idx) :
    i ∈ ((cfg0.win 1).blk t).view.set ↔ ∀ a : Fin 2, win0_1.index t a * S784x128.size a ≤ (i a).val ∧ (i a).val < win0_1.index t a * S784x128.size a + S784x128.size a := by
  show i ∈ ((View.whole main_v18).slice (win0_1.rect t)).set ↔ _
  rw [View.set_slice_whole, Rect.mem_set_unit]
  exact Iff.rfl

/-- The one block covers the output array. -/
theorem cover (i : S784x128.Idx) : ∃ t : Fin cfg0.N, (cfg0.win 1).flush t = true ∧ i ∈ ((cfg0.win 1).blk t).view.set := by
  refine ⟨t0_0, flush0_1 t0_0, ?_⟩
  rw [mem_blk]
  obtain ⟨-, -, e0, e1⟩ := idx_zero t0_0
  have h0 : (i 0).val < 784 := (i 0).isLt
  have h1 : (i 1).val < 128 := (i 1).isLt
  intro a
  match a with
  | ⟨0, _⟩ => show win0_1.index t0_0 (0 : Fin 2) * 784 ≤ (i 0).val ∧ (i 0).val < win0_1.index t0_0 (0 : Fin 2) * 784 + 784; omega
  | ⟨1, _⟩ => show win0_1.index t0_0 (1 : Fin 2) * 128 ≤ (i 1).val ∧ (i 1).val < win0_1.index t0_0 (1 : Fin 2) * 128 + 128; omega

/-- THE RESULT ARRAY after the region: the body's arithmetic of the whole input array. -/
theorem final (c : Dev nD) : (dats m 0 c).arrAt 1 cfg0.N = k0_pay1 (V m c (Pipeline.arrRef spec0 0)) :=
  (dats m 0 c).arrAt_eq_of_cover 1 (k0_pay1 (V m c (Pipeline.arrRef spec0 0))) (fun t _ => flushed_eq m c t) cover

end Cert.KernelIdeal.RegionValue

end
-- ==== Proof.KernelRun.lean ====
/-
  The kernel program's host operations read back: what the operations before the pallas_call leave in the buffers
  the call and the later operations read (the edge endpoints; the padded degree array), and what the operations after
  it make of the call's result array — each as a stage function, over ANY contents the buffers hold at the start of
  the stretch.
-/
import proofs.«408142_j59356448031141_3_alg».proof.Proof.Gen.KernelIdeal.Frame
import proofs.«408142_j59356448031141_3_alg».proof.Proof.KernelTerm
import proofs.«408142_j59356448031141_3_alg».proof.Proof.KernelValue
import Idealize.ShloMosaic.Lib.Pipeline.Frame
import Idealize.ShloMosaic.Lib.StableHlo.Run

set_option maxRecDepth 65536

noncomputable section

namespace Cert.KernelIdeal.HostRun

open Cert.KernelIdeal Cert.KernelIdeal.Gen Idealize.ShloMosaic Idealize.ShloMosaic.TcCoe Idealize.SL.Sem Idealize.ShloMosaic.StableHlo
open Idealize.ShloMosaic.Pipeline (Dat)

variable {F : FTy → Type} [FloatOps F]

/-- A two-piece concatenation with its pieces as plain arguments (so that a rewriting pass reads inside it). -/
def cat2 {α : Type} (t : Shape) (a : Fin t.rank) (s₁ s₂ : Shape) (h : Shape.Concatenates [s₁, s₂] t a) (x₁ : s₁.Idx → α) (x₂ : s₂.Idx → α) : t.Idx → α :=
  concatenate t a [⟨s₁, x₁⟩, ⟨s₂, x₂⟩] h
theorem concatenate_pair_eq_cat2 {α : Type} (t : Shape) (a : Fin t.rank) (s₁ s₂ : Shape) (h : Shape.Concatenates [s₁, s₂] t a) (x₁ : s₁.Idx → α) (x₂ : s₂.Idx → α) :
    concatenate t a [⟨s₁, x₁⟩, ⟨s₂, x₂⟩] h = cat2 t a s₁ s₂ h x₁ x₂ := rfl

/-- Contents carried to a typed reference's buffer type and back are the contents. -/
theorem ofBuf_toBuf {Val : EltTy → Type} {T : BufTy} (x : StableHlo.TRef sig T) (v : T.Contents Val) :
    x.ofBuf (x.toBuf v) = v := by
  obtain ⟨r, h, h2, h3⟩ := x
  subst h
  rfl

/-! ## Before the call, list by list, from any contents -/

/-- The source nodes. -/
theorem p0_row (W : Valuation τ sig (Elt F)) :
    after (hostOps0 : List (HloOp τ sig (Elt F))) W (Proc.devRef .tc main_v1) = Stage.row (W (Proc.devRef .tc main_arg1)) := by
  simp only [hostOps0, hostOps0_1, hostOps0_2, hostOps0_3, hostOps0_4, hostOps1, hostOps1_1, hostOps1_2, hostOps1_3]
  simp (disch := decide) only [after_cons, after_nil, concatenate_pair_eq_cat2, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
  unfold Stage.row
  first | done | rfl

/-- The target nodes. -/
theorem p0_col (W : Valuation τ sig (Elt F)) :
    after (hostOps0 : List (HloOp τ sig (Elt F))) W (Proc.devRef .tc main_v3) = Stage.col (W (Proc.devRef .tc main_arg1)) := by
  simp only [hostOps0, hostOps0_1, hostOps0_2, hostOps0_3, hostOps0_4, hostOps1, hostOps1_1, hostOps1_2, hostOps1_3]
  simp (disch := decide) only [after_cons, after_nil, concatenate_pair_eq_cat2, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
  unfold Stage.col
  first | done | rfl

/-- The rows carried through the sort. -/
theorem p0_sortedRows (W : Valuation τ sig (Elt F)) :
    after (hostOps0 : List (HloOp τ sig (Elt F))) W (Proc.devRef .tc main_v7_1) = Stage.sortedRows (W (Proc.devRef .tc main_arg1)) := by
  simp only [hostOps0, hostOps0_1, hostOps0_2, hostOps0_3, hostOps0_4, hostOps1, hostOps1_1, hostOps1_2, hostOps1_3]
  simp (disch := decide) only [after_cons, after_nil, concatenate_pair_eq_cat2, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
  unfold Stage.sortedRows Stage.keys Stage.row Stage.col
  first | done | rfl

/-- The comparisons of each sorted key with its predecessor. -/
theorem p0_neq (W : Valuation τ sig (Elt F)) :
    after (hostOps0 : List (HloOp τ sig (Elt F))) W (Proc.devRef .tc main_v11) = Stage.neq (W (Proc.devRef .tc main_arg1)) := by
  simp only [hostOps0, hostOps0_1, hostOps0_2, hostOps0_3, hostOps0_4, hostOps1, hostOps1_1, hostOps1_2, hostOps1_3]
  simp (disch := decide) only [after_cons, after_nil, concatenate_pair_eq_cat2, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
  unfold Stage.neq Stage.sortedKeys Stage.keys Stage.row Stage.col
  first | done | rfl

theorem p0_one (W : Valuation τ sig (Elt F)) :
    after (hostOps0 : List (HloOp τ sig (Elt F))) W (Proc.devRef .tc main_c_0) = constantI S_ 32 1#32 := by
  simp only [hostOps0, hostOps0_1, hostOps0_2, hostOps0_3, hostOps0_4, hostOps1, hostOps1_1, hostOps1_2, hostOps1_3]
  simp (disch := decide) only [after_cons, after_nil, concatenate_pair_eq_cat2, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
  first | done | rfl

theorem p0_arg1 (W : Valuation τ sig (Elt F)) : after (hostOps0 : List (HloOp τ sig (Elt F))) W (Proc.devRef .tc main_arg1) = W (Proc.devRef .tc main_arg1) := by
  simp only [hostOps0, hostOps0_1, hostOps0_2, hostOps0_3, hostOps0_4, hostOps1, hostOps1_1, hostOps1_2, hostOps1_3]
  simp (disch := decide) only [after_cons, after_nil, concatenate_pair_eq_cat2, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']

/-- The pad in front. -/
theorem p1_isFirst (W : Valuation τ sig (Elt F)) :
    after (hostOps0_1 : List (HloOp τ sig (Elt F))) W (Proc.devRef .tc main_v12) = pad S3200000 ![1] ![0] ![0] (W (Proc.devRef .tc main_v11)) (id (W (Proc.devRef .tc main_c_0))) pads_S3199999_S3200000_100 h_S_ := by
  simp only [hostOps0, hostOps0_1, hostOps0_2, hostOps0_3, hostOps0_4, hostOps1, hostOps1_1, hostOps1_2, hostOps1_3]
  simp (disch := decide) only [after_cons, after_nil, concatenate_pair_eq_cat2, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
  first | done | rfl

theorem p1_arg1 (W : Valuation τ sig (Elt F)) : after (hostOps0_1 : List (HloOp τ sig (Elt F))) W (Proc.devRef .tc main_arg1) = W (Proc.devRef .tc main_arg1) := by
  simp only [hostOps0, hostOps0_1, hostOps0_2, hostOps0_3, hostOps0_4, hostOps1, hostOps1_1, hostOps1_2, hostOps1_3]
  simp (disch := decide) only [after_cons, after_nil, concatenate_pair_eq_cat2, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']

theorem p1_v1 (W : Valuation τ sig (Elt F)) : after (hostOps0_1 : List (HloOp τ sig (Elt F))) W (Proc.devRef .tc main_v1) = W (Proc.devRef .tc main_v1) := by
  simp only [hostOps0, hostOps0_1, hostOps0_2, hostOps0_3, hostOps0_4, hostOps1, hostOps1_1, hostOps1_2, hostOps1_3]
  simp (disch := decide) only [after_cons, after_nil, concatenate_pair_eq_cat2, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']

theorem p1_v3 (W : Valuation τ sig (Elt F)) : after (hostOps0_1 : List (HloOp τ sig (Elt F))) W (Proc.devRef .tc main_v3) = W (Proc.devRef .tc main_v3) := by
  simp only [hostOps0, hostOps0_1, hostOps0_2, hostOps0_3, hostOps0_4, hostOps1, hostOps1_1, hostOps1_2, hostOps1_3]
  simp (disch := decide) only [after_cons, after_nil, concatenate_pair_eq_cat2, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']

theorem p1_v7_1 (W : Valuation τ sig (Elt F)) : after (hostOps0_1 : List (HloOp τ sig (Elt F))) W (Proc.devRef .tc main_v7_1) = W (Proc.devRef .tc main_v7_1) := by
  simp only [hostOps0, hostOps0_1, hostOps0_2, hostOps0_3, hostOps0_4, hostOps1, hostOps1_1, hostOps1_2, hostOps1_3]
  simp (disch := decide) only [after_cons, after_nil, concatenate_pair_eq_cat2, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']

/-- The scatter-add. -/
theorem p2_deg (W : Valuation τ sig (Elt F)) :
    after (hostOps0_2 : List (HloOp τ sig (Elt F))) W (Proc.devRef .tc main_v15) = Host.scatter scatter_S100000_S3200000x1_S3200000_n_0_0_1 IntOp.addi (broadcastInDim S100000 ![] bcast_S_S100000 (constantI S_ 32 0#32)) (broadcastInDim S3200000x1 ![0] bcast_S3200000_S3200000x1_0 (W (Proc.devRef .tc main_v7_1))) (W (Proc.devRef .tc main_v12)) := by
  simp only [hostOps0, hostOps0_1, hostOps0_2, hostOps0_3, hostOps0_4, hostOps1, hostOps1_1, hostOps1_2, hostOps1_3]
  simp (disch := decide) only [after_cons, after_nil, concatenate_pair_eq_cat2, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
  first | done | rfl

theorem p2_zero (W : Valuation τ sig (Elt F)) :
    after (hostOps0_2 : List (HloOp τ sig (Elt F))) W (Proc.devRef .tc main_c_2) = constantI S_ 32 0#32 := by
  simp only [hostOps0, hostOps0_1, hostOps0_2, hostOps0_3, hostOps0_4, hostOps1, hostOps1_1, hostOps1_2, hostOps1_3]
  simp (disch := decide) only [after_cons, after_nil, concatenate_pair_eq_cat2, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
  first | done | rfl

theorem p2_arg1 (W : Valuation τ sig (Elt F)) : after (hostOps0_2 : List (HloOp τ sig (Elt F))) W (Proc.devRef .tc main_arg1) = W (Proc.devRef .tc main_arg1) := by
  simp only [hostOps0, hostOps0_1, hostOps0_2, hostOps0_3, hostOps0_4, hostOps1, hostOps1_1, hostOps1_2, hostOps1_3]
  simp (disch := decide) only [after_cons, after_nil, concatenate_pair_eq_cat2, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']

theorem p2_v1 (W : Valuation τ sig (Elt F)) : after (hostOps0_2 : List (HloOp τ sig (Elt F))) W (Proc.devRef .tc main_v1) = W (Proc.devRef .tc main_v1) := by
  simp only [hostOps0, hostOps0_1, hostOps0_2, hostOps0_3, hostOps0_4, hostOps1, hostOps1_1, hostOps1_2, hostOps1_3]
  simp (disch := decide) only [after_cons, after_nil, concatenate_pair_eq_cat2, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']

theorem p2_v3 (W : Valuation τ sig (Elt F)) : after (hostOps0_2 : List (HloOp τ sig (Elt F))) W (Proc.devRef .tc main_v3) = W (Proc.devRef .tc main_v3) := by
  simp only [hostOps0, hostOps0_1, hostOps0_2, hostOps0_3, hostOps0_4, hostOps1, hostOps1_1, hostOps1_2, hostOps1_3]
  simp (disch := decide) only [after_cons, after_nil, concatenate_pair_eq_cat2, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']

/-- The pad behind. -/
theorem p3_pad (W : Valuation τ sig (Elt F)) :
    after (hostOps0_3 : List (HloOp τ sig (Elt F))) W (Proc.devRef .tc main_v16) = pad S100352 ![0] ![352] ![0] (W (Proc.devRef .tc main_v15)) (id (W (Proc.devRef .tc main_c_2))) pads_S100000_S100352_03520 h_S_ := by
  simp only [hostOps0, hostOps0_1, hostOps0_2, hostOps0_3, hostOps0_4, hostOps1, hostOps1_1, hostOps1_2, hostOps1_3]
  simp (disch := decide) only [after_cons, after_nil, concatenate_pair_eq_cat2, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
  first | done | rfl

theorem p3_arg1 (W : Valuation τ sig (Elt F)) : after (hostOps0_3 : List (HloOp τ sig (Elt F))) W (Proc.devRef .tc main_arg1) = W (Proc.devRef .tc main_arg1) := by
  simp only [hostOps0, hostOps0_1, hostOps0_2, hostOps0_3, hostOps0_4, hostOps1, hostOps1_1, hostOps1_2, hostOps1_3]
  simp (disch := decide) only [after_cons, after_nil, concatenate_pair_eq_cat2, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']

theorem p3_v1 (W : Valuation τ sig (Elt F)) : after (hostOps0_3 : List (HloOp τ sig (Elt F))) W (Proc.devRef .tc main_v1) = W (Proc.devRef .tc main_v1) := by
  simp only [hostOps0, hostOps0_1, hostOps0_2, hostOps0_3, hostOps0_4, hostOps1, hostOps1_1, hostOps1_2, hostOps1_3]
  simp (disch := decide) only [after_cons, after_nil, concatenate_pair_eq_cat2, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']

theorem p3_v3 (W : Valuation τ sig (Elt F)) : after (hostOps0_3 : List (HloOp τ sig (Elt F))) W (Proc.devRef .tc main_v3) = W (Proc.devRef .tc main_v3) := by
  simp only [hostOps0, hostOps0_1, hostOps0_2, hostOps0_3, hostOps0_4, hostOps1, hostOps1_1, hostOps1_2, hostOps1_3]
  simp (disch := decide) only [after_cons, after_nil, concatenate_pair_eq_cat2, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']

/-- The re-laying 100352 → 784 × 128. -/
theorem p4_reshape (W : Valuation τ sig (Elt F)) :
    after (hostOps0_4 : List (HloOp τ sig (Elt F))) W (Proc.devRef .tc main_v17) = shapeCast S784x128 (W (Proc.devRef .tc main_v16)) shapeCasts_S100352_S784x128 := by
  simp only [hostOps0, hostOps0_1, hostOps0_2, hostOps0_3, hostOps0_4, hostOps1, hostOps1_1, hostOps1_2, hostOps1_3]
  simp (disch := decide) only [after_cons, after_nil, concatenate_pair_eq_cat2, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
  first | done | rfl

theorem p4_arg1 (W : Valuation τ sig (Elt F)) : after (hostOps0_4 : List (HloOp τ sig (Elt F))) W (Proc.devRef .tc main_arg1) = W (Proc.devRef .tc main_arg1) := by
  simp only [hostOps0, hostOps0_1, hostOps0_2, hostOps0_3, hostOps0_4, hostOps1, hostOps1_1, hostOps1_2, hostOps1_3]
  simp (disch := decide) only [after_cons, after_nil, concatenate_pair_eq_cat2, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']

theorem p4_v1 (W : Valuation τ sig (Elt F)) : after (hostOps0_4 : List (HloOp τ sig (Elt F))) W (Proc.devRef .tc main_v1) = W (Proc.devRef .tc main_v1) := by
  simp only [hostOps0, hostOps0_1, hostOps0_2, hostOps0_3, hostOps0_4, hostOps1, hostOps1_1, hostOps1_2, hostOps1_3]
  simp (disch := decide) only [after_cons, after_nil, concatenate_pair_eq_cat2, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']

theorem p4_v3 (W : Valuation τ sig (Elt F)) : after (hostOps0_4 : List (HloOp τ sig (Elt F))) W (Proc.devRef .tc main_v3) = W (Proc.devRef .tc main_v3) := by
  simp only [hostOps0, hostOps0_1, hostOps0_2, hostOps0_3, hostOps0_4, hostOps1, hostOps1_1, hostOps1_2, hostOps1_3]
  simp (disch := decide) only [after_cons, after_nil, concatenate_pair_eq_cat2, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']

/-! ## After the call, list by list, from any contents -/

/-- The result array cut back to the nodes. -/
theorem t1_dis (W : Valuation τ sig (Elt F)) :
    after (hostOps1 : List (HloOp τ sig (Elt F))) W (Proc.devRef .tc main_v20) = Stage.dis (W (Proc.devRef .tc main_v18)) := by
  simp only [hostOps0, hostOps0_1, hostOps0_2, hostOps0_3, hostOps0_4, hostOps1, hostOps1_1, hostOps1_2, hostOps1_3]
  simp (disch := decide) only [after_cons, after_nil, concatenate_pair_eq_cat2, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
  unfold Stage.dis
  first | done | rfl

theorem t1_arg1 (W : Valuation τ sig (Elt F)) : after (hostOps1 : List (HloOp τ sig (Elt F))) W (Proc.devRef .tc main_arg1) = W (Proc.devRef .tc main_arg1) := by
  simp only [hostOps0, hostOps0_1, hostOps0_2, hostOps0_3, hostOps0_4, hostOps1, hostOps1_1, hostOps1_2, hostOps1_3]
  simp (disch := decide) only [after_cons, after_nil, concatenate_pair_eq_cat2, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']

theorem t1_v1 (W : Valuation τ sig (Elt F)) : after (hostOps1 : List (HloOp τ sig (Elt F))) W (Proc.devRef .tc main_v1) = W (Proc.devRef .tc main_v1) := by
  simp only [hostOps0, hostOps0_1, hostOps0_2, hostOps0_3, hostOps0_4, hostOps1, hostOps1_1, hostOps1_2, hostOps1_3]
  simp (disch := decide) only [after_cons, after_nil, concatenate_pair_eq_cat2, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']

theorem t1_v3 (W : Valuation τ sig (Elt F)) : after (hostOps1 : List (HloOp τ sig (Elt F))) W (Proc.devRef .tc main_v3) = W (Proc.devRef .tc main_v3) := by
  simp only [hostOps0, hostOps0_1, hostOps0_2, hostOps0_3, hostOps0_4, hostOps1, hostOps1_1, hostOps1_2, hostOps1_3]
  simp (disch := decide) only [after_cons, after_nil, concatenate_pair_eq_cat2, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']

/-- The take at the source nodes. -/
theorem t2_take (W : Valuation τ sig (Elt F)) :
    after (hostOps1_1 : List (HloOp τ sig (Elt F))) W (Proc.devRef .tc main_v21) = Stage.take (W (Proc.devRef .tc main_v20)) (W (Proc.devRef .tc main_v1)) := by
  simp only [hostOps0, hostOps0_1, hostOps0_2, hostOps0_3, hostOps0_4, hostOps1, hostOps1_1, hostOps1_2, hostOps1_3]
  simp (disch := decide) only [after_cons, after_nil, concatenate_pair_eq_cat2, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
  repeat rw [ofBuf_toBuf]
  rw [(show (TRef.of (sig := sig) (T := ⟨S3200000, .i32⟩) main_v1).ofBuf (Val := Elt F) (W (Proc.devRef .tc main_v1)) = W (Proc.devRef .tc main_v1) from rfl), (show (TRef.of (sig := sig) (T := ⟨S100000, .f32⟩) main_v20).ofBuf (Val := Elt F) (W (Proc.devRef .tc main_v20)) = W (Proc.devRef .tc main_v20) from rfl), (show ∀ v : FVec F S3200000 .f32, (TRef.of (sig := sig) (T := ⟨S3200000, .f32⟩) main_v21).toBuf (Val := Elt F) v = v from fun _ => rfl)]
  unfold Stage.take Stage.inRange Stage.wrapCol
  rfl

theorem t2_arg1 (W : Valuation τ sig (Elt F)) : after (hostOps1_1 : List (HloOp τ sig (Elt F))) W (Proc.devRef .tc main_arg1) = W (Proc.devRef .tc main_arg1) := by
  simp only [hostOps0, hostOps0_1, hostOps0_2, hostOps0_3, hostOps0_4, hostOps1, hostOps1_1, hostOps1_2, hostOps1_3]
  simp (disch := decide) only [after_cons, after_nil, concatenate_pair_eq_cat2, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']

theorem t2_v3 (W : Valuation τ sig (Elt F)) : after (hostOps1_1 : List (HloOp τ sig (Elt F))) W (Proc.devRef .tc main_v3) = W (Proc.devRef .tc main_v3) := by
  simp only [hostOps0, hostOps0_1, hostOps0_2, hostOps0_3, hostOps0_4, hostOps1, hostOps1_1, hostOps1_2, hostOps1_3]
  simp (disch := decide) only [after_cons, after_nil, concatenate_pair_eq_cat2, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']

theorem t2_v20 (W : Valuation τ sig (Elt F)) : after (hostOps1_1 : List (HloOp τ sig (Elt F))) W (Proc.devRef .tc main_v20) = W (Proc.devRef .tc main_v20) := by
  simp only [hostOps0, hostOps0_1, hostOps0_2, hostOps0_3, hostOps0_4, hostOps1, hostOps1_1, hostOps1_2, hostOps1_3]
  simp (disch := decide) only [after_cons, after_nil, concatenate_pair_eq_cat2, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']

/-- The take at the target nodes. -/
theorem t3_take (W : Valuation τ sig (Elt F)) :
    after (hostOps1_2 : List (HloOp τ sig (Elt F))) W (Proc.devRef .tc main_v22) = Stage.take (W (Proc.devRef .tc main_v20)) (W (Proc.devRef .tc main_v3)) := by
  simp only [hostOps0, hostOps0_1, hostOps0_2, hostOps0_3, hostOps0_4, hostOps1, hostOps1_1, hostOps1_2, hostOps1_3]
  simp (disch := decide) only [after_cons, after_nil, concatenate_pair_eq_cat2, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
  repeat rw [ofBuf_toBuf]
  rw [(show (TRef.of (sig := sig) (T := ⟨S3200000, .i32⟩) main_v3).ofBuf (Val := Elt F) (W (Proc.devRef .tc main_v3)) = W (Proc.devRef .tc main_v3) from rfl), (show (TRef.of (sig := sig) (T := ⟨S100000, .f32⟩) main_v20).ofBuf (Val := Elt F) (W (Proc.devRef .tc main_v20)) = W (Proc.devRef .tc main_v20) from rfl), (show ∀ v : FVec F S3200000 .f32, (TRef.of (sig := sig) (T := ⟨S3200000, .f32⟩) main_v22).toBuf (Val := Elt F) v = v from fun _ => rfl)]
  unfold Stage.take Stage.inRange Stage.wrapCol
  rfl

theorem t3_arg1 (W : Valuation τ sig (Elt F)) : after (hostOps1_2 : List (HloOp τ sig (Elt F))) W (Proc.devRef .tc main_arg1) = W (Proc.devRef .tc main_arg1) := by
  simp only [hostOps0, hostOps0_1, hostOps0_2, hostOps0_3, hostOps0_4, hostOps1, hostOps1_1, hostOps1_2, hostOps1_3]
  simp (disch := decide) only [after_cons, after_nil, concatenate_pair_eq_cat2, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']

theorem t3_v21 (W : Valuation τ sig (Elt F)) : after (hostOps1_2 : List (HloOp τ sig (Elt F))) W (Proc.devRef .tc main_v21) = W (Proc.devRef .tc main_v21) := by
  simp only [hostOps0, hostOps0_1, hostOps0_2, hostOps0_3, hostOps0_4, hostOps1, hostOps1_1, hostOps1_2, hostOps1_3]
  simp (disch := decide) only [after_cons, after_nil, concatenate_pair_eq_cat2, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']

/-- The values result. -/
theorem t4_out0 (W : Valuation τ sig (Elt F)) :
    after (hostOps1_3 : List (HloOp τ sig (Elt F))) W (Proc.devRef .tc main_v31) = concatenate S3300000 0 [⟨S100000, broadcastInDim S100000 ![] bcast_S_S100000 (constant S_ .f32 0x3F800000#32)⟩, ⟨S3200000, Host.negf (mulf (W (Proc.devRef .tc main_v21)) (W (Proc.devRef .tc main_v22)))⟩] concatenates_S100000_S3200000_S3300000_d0 := by
  simp only [hostOps0, hostOps0_1, hostOps0_2, hostOps0_3, hostOps0_4, hostOps1, hostOps1_1, hostOps1_2, hostOps1_3]
  simp (disch := decide) only [after_cons, after_nil, concatenate_pair_eq_cat2, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']

/-- The indices result. -/
theorem t4_out1 (W : Valuation τ sig (Elt F)) :
    after (hostOps1_3 : List (HloOp τ sig (Elt F))) W (Proc.devRef .tc main_v29) = Stage.out1 (W (Proc.devRef .tc main_arg1)) := by
  simp only [hostOps0, hostOps0_1, hostOps0_2, hostOps0_3, hostOps0_4, hostOps1, hostOps1_1, hostOps1_2, hostOps1_3]
  simp (disch := decide) only [after_cons, after_nil, concatenate_pair_eq_cat2, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
  unfold Stage.out1 cat2
  first | done | rfl

/-! ## The five lists before the call, together -/

/-- Before the call, from any contents: the edge endpoints and the padded degree array, as the stage functions of the
    edge array. The successive lists' contents are named and each list's facts are carried to the next. -/
theorem pre_all (W0 : Valuation τ sig (Elt F)) :
    after (List.flatten [hostOps0, hostOps0_1, hostOps0_2, hostOps0_3, hostOps0_4] : List (HloOp τ sig (Elt F))) W0 (Proc.devRef .tc main_v1) = Stage.row (W0 (Proc.devRef .tc main_arg1))
      ∧ after (List.flatten [hostOps0, hostOps0_1, hostOps0_2, hostOps0_3, hostOps0_4] : List (HloOp τ sig (Elt F))) W0 (Proc.devRef .tc main_v3) = Stage.col (W0 (Proc.devRef .tc main_arg1))
      ∧ after (List.flatten [hostOps0, hostOps0_1, hostOps0_2, hostOps0_3, hostOps0_4] : List (HloOp τ sig (Elt F))) W0 (Proc.devRef .tc main_v17) = Stage.degPad (W0 (Proc.devRef .tc main_arg1)) := by
  simp only [List.flatten_cons, List.flatten_nil, List.append_nil, StableHlo.after_append]
  generalize h0 : after hostOps0 W0 = W1
  generalize h1 : after hostOps0_1 W1 = W2
  generalize h2 : after hostOps0_2 W2 = W3
  generalize h3 : after hostOps0_3 W3 = W4
  have a_row : W1 (Proc.devRef .tc main_v1) = Stage.row (W0 (Proc.devRef .tc main_arg1)) := by rw [← h0, p0_row]
  have a_col : W1 (Proc.devRef .tc main_v3) = Stage.col (W0 (Proc.devRef .tc main_arg1)) := by rw [← h0, p0_col]
  have a_sr : W1 (Proc.devRef .tc main_v7_1) = Stage.sortedRows (W0 (Proc.devRef .tc main_arg1)) := by rw [← h0, p0_sortedRows]
  have a_neq : W1 (Proc.devRef .tc main_v11) = Stage.neq (W0 (Proc.devRef .tc main_arg1)) := by rw [← h0, p0_neq]
  have a_one : W1 (Proc.devRef .tc main_c_0) = constantI S_ 32 1#32 := by rw [← h0, p0_one]
  have b_if : W2 (Proc.devRef .tc main_v12) = Stage.isFirst (W0 (Proc.devRef .tc main_arg1)) := by rw [← h1, p1_isFirst, a_neq, a_one]; rfl
  have b_row : W2 (Proc.devRef .tc main_v1) = Stage.row (W0 (Proc.devRef .tc main_arg1)) := by rw [← h1, p1_v1, a_row]
  have b_col : W2 (Proc.devRef .tc main_v3) = Stage.col (W0 (Proc.devRef .tc main_arg1)) := by rw [← h1, p1_v3, a_col]
  have b_sr : W2 (Proc.devRef .tc main_v7_1) = Stage.sortedRows (W0 (Proc.devRef .tc main_arg1)) := by rw [← h1, p1_v7_1, a_sr]
  have c_deg : W3 (Proc.devRef .tc main_v15) = Stage.deg (W0 (Proc.devRef .tc main_arg1)) := by rw [← h2, p2_deg, b_sr, b_if]; rfl
  have c_zero : W3 (Proc.devRef .tc main_c_2) = constantI S_ 32 0#32 := by rw [← h2, p2_zero]
  have c_row : W3 (Proc.devRef .tc main_v1) = Stage.row (W0 (Proc.devRef .tc main_arg1)) := by rw [← h2, p2_v1, b_row]
  have c_col : W3 (Proc.devRef .tc main_v3) = Stage.col (W0 (Proc.devRef .tc main_arg1)) := by rw [← h2, p2_v3, b_col]
  have d_pad : W4 (Proc.devRef .tc main_v16) = pad S100352 ![0] ![352] ![0] (Stage.deg (W0 (Proc.devRef .tc main_arg1))) (id (constantI S_ 32 0#32)) pads_S100000_S100352_03520 h_S_ := by
    rw [← h3, p3_pad, c_deg, c_zero]
  have d_row : W4 (Proc.devRef .tc main_v1) = Stage.row (W0 (Proc.devRef .tc main_arg1)) := by rw [← h3, p3_v1, c_row]
  have d_col : W4 (Proc.devRef .tc main_v3) = Stage.col (W0 (Proc.devRef .tc main_arg1)) := by rw [← h3, p3_v3, c_col]
  refine ⟨?_, ?_, ?_⟩
  · rw [p4_v1, d_row]
  · rw [p4_v3, d_col]
  · rw [p4_reshape, d_pad]; rfl

/-! ## The four lists after the call, together -/

/-- After the call, from any contents: the two results, of the call's result array, the edge endpoints and the edge array. -/
theorem tail_all (W0 : Valuation τ sig (Elt F)) :
    after (List.flatten [hostOps1, hostOps1_1, hostOps1_2, hostOps1_3] : List (HloOp τ sig (Elt F))) W0 (Proc.devRef .tc main_v31)
        = Stage.out0 (W0 (Proc.devRef .tc main_v18)) (W0 (Proc.devRef .tc main_v1)) (W0 (Proc.devRef .tc main_v3))
      ∧ after (List.flatten [hostOps1, hostOps1_1, hostOps1_2, hostOps1_3] : List (HloOp τ sig (Elt F))) W0 (Proc.devRef .tc main_v29) = Stage.out1 (W0 (Proc.devRef .tc main_arg1)) := by
  simp only [List.flatten_cons, List.flatten_nil, List.append_nil, StableHlo.after_append]
  generalize h1 : after hostOps1 W0 = W1
  generalize h2 : after hostOps1_1 W1 = W2
  generalize h3 : after hostOps1_2 W2 = W3
  have a_dis : W1 (Proc.devRef .tc main_v20) = Stage.dis (W0 (Proc.devRef .tc main_v18)) := by rw [← h1, t1_dis]
  have a_row : W1 (Proc.devRef .tc main_v1) = W0 (Proc.devRef .tc main_v1) := by rw [← h1, t1_v1]
  have a_col : W1 (Proc.devRef .tc main_v3) = W0 (Proc.devRef .tc main_v3) := by rw [← h1, t1_v3]
  have a_arg : W1 (Proc.devRef .tc main_arg1) = W0 (Proc.devRef .tc main_arg1) := by rw [← h1, t1_arg1]
  have b_take : W2 (Proc.devRef .tc main_v21) = Stage.take (Stage.dis (W0 (Proc.devRef .tc main_v18))) (W0 (Proc.devRef .tc main_v1)) := by rw [← h2, t2_take, a_dis, a_row]
  have b_col : W2 (Proc.devRef .tc main_v3) = W0 (Proc.devRef .tc main_v3) := by rw [← h2, t2_v3, a_col]
  have b_dis : W2 (Proc.devRef .tc main_v20) = Stage.dis (W0 (Proc.devRef .tc main_v18)) := by rw [← h2, t2_v20, a_dis]
  have b_arg : W2 (Proc.devRef .tc main_arg1) = W0 (Proc.devRef .tc main_arg1) := by rw [← h2, t2_arg1, a_arg]
  have c_take : W3 (Proc.devRef .tc main_v22) = Stage.take (Stage.dis (W0 (Proc.devRef .tc main_v18))) (W0 (Proc.devRef .tc main_v3)) := by rw [← h3, t3_take, b_dis, b_col]
  have c_prev : W3 (Proc.devRef .tc main_v21) = Stage.take (Stage.dis (W0 (Proc.devRef .tc main_v18))) (W0 (Proc.devRef .tc main_v1)) := by rw [← h3, t3_v21, b_take]
  have c_arg : W3 (Proc.devRef .tc main_arg1) = W0 (Proc.devRef .tc main_arg1) := by rw [← h3, t3_arg1, b_arg]
  refine ⟨?_, ?_⟩
  · rw [t4_out0, c_prev, c_take]; rfl
  · rw [t4_out1, c_arg]

/-! ## The kernel program's run, read -/

variable (m : (ℓ : Loc nD τ sig) → Buf (Elt F) ℓ) (ρ : Dev nD → PrngReg)

/-- The contents the operations after the call start from: the pipeline's arrays as the call leaves them, every other
    buffer as the operations before the call left it. -/
abbrev W₀ (c : Dev nD) : Valuation τ sig (Elt F) :=
  Pipeline.withArrays (cfgs 0).spec c (V0 m c) fun w => (dats m 0 c).arrAt w (cfgs 0).N

/-- There, the call's result array holds the body's arithmetic of the padded degrees, -/
theorem W₀_v18 (c : Dev nD) : W₀ m c (Proc.devRef .tc main_v18) = k0_pay1 (Stage.degPad (m ((c : Thread nD τ).loc main_arg1))) := by
  have e := Pipeline.withArrays_arr (τ := τ) spec0 launch0.win.arr_inj c (V0 m c) (fun w => (dats m 0 c).arrAt w (cfgs 0).N) 1
  refine e.trans ((RegionValue.final m c).trans ?_)
  exact congrArg k0_pay1 (pre_all (fun b => m (c, b))).2.2
/-- and the other buffers what the operations before the call left: the source nodes, -/
theorem W₀_v1 (c : Dev nD) : W₀ m c (Proc.devRef .tc main_v1) = Stage.row (m ((c : Thread nD τ).loc main_arg1)) :=
  (Pipeline.withArrays_of_ne _ c (V0 m c) _ main_v1 (by exact (by decide : ∀ w, Pipeline.arrRef spec0 w ≠ main_v1))).trans (pre_all (fun b => m (c, b))).1
/-- the target nodes, -/
theorem W₀_v3 (c : Dev nD) : W₀ m c (Proc.devRef .tc main_v3) = Stage.col (m ((c : Thread nD τ).loc main_arg1)) :=
  (Pipeline.withArrays_of_ne _ c (V0 m c) _ main_v3 (by exact (by decide : ∀ w, Pipeline.arrRef spec0 w ≠ main_v3))).trans (pre_all (fun b => m (c, b))).2.1
/-- the edge array. -/
theorem W₀_arg1 (c : Dev nD) : W₀ m c (Proc.devRef .tc main_arg1) = m ((c : Thread nD τ).loc main_arg1) :=
  (Pipeline.withArrays_of_ne _ c (V0 m c) _ main_arg1 (by exact (by decide : ∀ w, Pipeline.arrRef spec0 w ≠ main_arg1))).trans (V_main_arg1 m c)

/-- THE KERNEL PROGRAM'S RUN: every weakly fair execution of @main terminates with the values result and the indices
    result at their stage functions of the edge array, and the arguments unchanged. -/
theorem run : θ_run defs (onTc (τ := τ) (main (F := F))) ⟨m, fun _ => 0, ρ⟩ fun r => ∀ c : Dev nD,
      r.2.mem ((c.tc : Thread nD τ).loc main_v31)
          = Stage.out0 (k0_pay1 (Stage.degPad (m ((c : Thread nD τ).loc main_arg1)))) (Stage.row (m ((c : Thread nD τ).loc main_arg1))) (Stage.col (m ((c : Thread nD τ).loc main_arg1)))
      ∧ r.2.mem ((c.tc : Thread nD τ).loc main_v29) = Stage.out1 (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨
      ((h c).2 main_v31 (Pipeline.mem_restRefs_of main_v31 (by decide) (by decide))).trans
        (((tail_all (W₀ m c)).1).trans (by rw [W₀_v18, W₀_v1, W₀_v3])),
      ((h c).2 main_v29 (Pipeline.mem_restRefs_of main_v29 (by decide) (by decide))).trans
        (((tail_all (W₀ m c)).2).trans (by rw [W₀_arg1])),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.HostRun

end
-- ==== Proof.RefTerm.lean ====
/-
  The reference program, stage by stage, as pure functions: the argsort of the combined key (the positions a stable sort by
  key takes), a vector gathered at those positions, the "first of its run" flags as a one-entry vector joined to the
  comparisons, the degree by a scatter-add, its inverse square root with zero degrees sent to zero, the two gathers at the
  edge endpoints, their negated product behind 100000 ones. (The edge endpoints and the combined key are the kernel
  program's own stages.)
-/
import proofs.«408142_j59356448031141_3_alg».proof.Proof.Gen.ReferenceIdeal
import proofs.«408142_j59356448031141_3_alg».proof.Proof.KernelTerm

noncomputable section

namespace Cert.ReferenceIdeal.Stage

open Cert.ReferenceIdeal Cert.ReferenceIdeal.Gen Idealize.ShloMosaic
open Cert.KernelIdeal.Stage renaming row → kRow, col → kCol, keys → kKeys, wrapCol → kWrapCol, out1 → kOut1

variable {F : FTy → Type} [FloatOps F]

/-! ## The stages -/

/-- The argsort: where each sorted position's key came from, as words. -/
def ordOf (keys : IVec S3200000 32) : IVec S3200000 32 :=
  (Host.sort2 S3200000 0 comparator_i32_i32_d0 keys (iotaInDim S3200000 32 0)).2
/-- A position counted from the end wrapped (`p < 0 ? p + 3200000 : p`), as a column of start indices. -/
def wrapE (ix : IVec S3200000 32) : IVec S3200000x1 32 :=
  broadcastInDim S3200000x1 ![0] bcast_S3200000_S3200000x1_0
    (select (cmpi .slt ix (broadcastInDim S3200000 ![] bcast_S_S3200000 (constantI S_ 32 0#32)))
      (addi ix (broadcastInDim S3200000 ![] bcast_S_S3200000 (constantI S_ 32 3200000#32))) ix)
/-- A vector read at the argsort's positions. -/
def atOrd (y ord : IVec S3200000 32) : IVec S3200000 32 :=
  Host.gather gather_S3200000_S3200000x1_S3200000_n_0_n_n_0_1_1 y (wrapE ord)
/-- 1 at position 0, then 1 where a sorted key differs from its predecessor. -/
def isFirstOf (sk : IVec S3200000 32) : IVec S3200000 32 :=
  concatenate S3200000 0
    [⟨S1, broadcastInDim S1 ![] bcast_S_S1 (constantI S_ 32 1#32)⟩,
     ⟨S3199999, extui 32 (cmpi .ne (extractStridedSlice S3199999 ![1] sk slices_S3200000_S3199999_1)
        (extractStridedSlice S3199999 ![0] sk slices_S3200000_S3199999_0)) natLt_1_32⟩]
    concatenates_S1_S3199999_S3200000_d0
/-- The flags summed into their rows. -/
def degOf (rs isf : IVec S3200000 32) : IVec S100000 32 :=
  Host.scatter scatter_S100000_S3200000x1_S3200000_n_0_0_1 IntOp.addi
    (broadcastInDim S100000 ![] bcast_S_S100000 (constantI S_ 32 0#32))
    (broadcastInDim S3200000x1 ![0] bcast_S3200000_S3200000x1_0 rs) isf
/-- `deg > 0 ? rsqrt (max (deg, 1)) : 0`, node by node. -/
def disOf (deg : IVec S100000 32) : FVec F S100000 .f32 :=
  select (cmpi .sgt deg (broadcastInDim S100000 ![] bcast_S_S100000 (constantI S_ 32 0#32)))
    (Host.rsqrt (maximumf (sitofp (F := F) .f32 deg) (broadcastInDim S100000 ![] bcast_S_S100000 (constant S_ .f32 0x3F800000#32))))
    (broadcastInDim S100000 ![] bcast_S_S100000 (id (constant S_ .f32 0x00000000#32)))
/-- The table gathered at the (wrapped) source and target nodes, multiplied edge by edge. -/
def prodOf (d : FVec F S100000 .f32) (r cl : IVec S3200000 32) : FVec F S3200000 .f32 :=
  mulf (Host.gather gather_S100000_S3200000x1_S3200000_n_0_n_n_0_1_1 d (kWrapCol r))
    (Host.gather gather_S100000_S3200000x1_S3200000_n_0_n_n_0_1_1 d (kWrapCol cl))
/-- 100000 ones, then the negated products. -/
def out0Of (p : FVec F S3200000 .f32) : FVec F S3300000 .f32 :=
  concatenate S3300000 0
    [⟨S100000, broadcastInDim S100000 ![] bcast_S_S100000 (constant S_ .f32 0x3F800000#32)⟩, ⟨S3200000, Host.negf p⟩]
    concatenates_S100000_S3200000_S3300000_d0
/-- The values result as one function of the edge array. -/
def out0 (A : IVec S2x3200000 32) : FVec F S3300000 .f32 :=
  out0Of (prodOf (disOf (degOf (atOrd (kRow A) (ordOf (kKeys A))) (isFirstOf (atOrd (kKeys A) (ordOf (kKeys A)))))) (kRow A) (kCol A))

end Cert.ReferenceIdeal.Stage

end
-- ==== Proof.RefStages.lean ====
/-
  The reference program's run, read back stretch by stretch. Its eighty host operations are cut into six stretches; what a
  stretch leaves in the buffers later stretches read is stated over ANY contents `V` at the stretch's start, as a stage
  function of the few buffers the stretch reads, so no term ever holds more than one stretch's operations. The stages: the
  argsort of the combined key (the positions a stable sort by key takes), the keys and the rows gathered at those positions,
  the "first of its run" flags as a one-entry vector joined to the comparisons, the degree by a scatter-add, its inverse square
  root with zero degrees sent to zero, the two gathers at the edge endpoints, their negated product behind 100000 ones.
-/
import proofs.«408142_j59356448031141_3_alg».proof.Proof.RefRun
import proofs.«408142_j59356448031141_3_alg».proof.Proof.KernelTerm
import proofs.«408142_j59356448031141_3_alg».proof.Proof.RefTerm
import Idealize.ShloMosaic.Lib.StableHlo.Run
import Idealize.ShloMosaic.Lib.Pipeline.Frame

set_option maxRecDepth 65536

noncomputable section

namespace Cert.ReferenceIdeal.Stages

open Cert.ReferenceIdeal Cert.ReferenceIdeal.Gen Cert.ReferenceIdeal.ValueP Idealize.ShloMosaic Idealize.ShloMosaic.TcCoe Idealize.SL.Sem Idealize.ShloMosaic.StableHlo
open Cert.ReferenceIdeal.Stage
open Cert.KernelIdeal.Stage renaming row → kRow, col → kCol, keys → kKeys, wrapCol → kWrapCol, out1 → kOut1

variable {F : FTy → Type} [FloatOps F]

/-- A two-piece concatenation with its pieces as plain arguments (so that a rewriting pass reads inside it). -/
def cat2 {α : Type} (t : Shape) (a : Fin t.rank) (s₁ s₂ : Shape) (h : Shape.Concatenates [s₁, s₂] t a) (x₁ : s₁.Idx → α) (x₂ : s₂.Idx → α) : t.Idx → α :=
  concatenate t a [⟨s₁, x₁⟩, ⟨s₂, x₂⟩] h
theorem concatenate_pair_eq_cat2 {α : Type} (t : Shape) (a : Fin t.rank) (s₁ s₂ : Shape) (h : Shape.Concatenates [s₁, s₂] t a) (x₁ : s₁.Idx → α) (x₂ : s₂.Idx → α) :
    concatenate t a [⟨s₁, x₁⟩, ⟨s₂, x₂⟩] h = cat2 t a s₁ s₂ h x₁ x₂ := rfl

/-! ## Stretch A (operations 1 to 8): endpoints and key -/

theorem A_row (V : Valuation τ sig (Elt F)) :
    after opsA V (Proc.devRef .tc main_v1) = kRow (V (Proc.devRef .tc main_arg1)) := by
  delta opsA
  simp (disch := decide) only [after_cons, after_nil, concatenate_pair_eq_cat2, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
  unfold kRow
  rfl

theorem A_col (V : Valuation τ sig (Elt F)) :
    after opsA V (Proc.devRef .tc main_v3) = kCol (V (Proc.devRef .tc main_arg1)) := by
  delta opsA
  simp (disch := decide) only [after_cons, after_nil, concatenate_pair_eq_cat2, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
  unfold kCol
  rfl

theorem A_keys (V : Valuation τ sig (Elt F)) :
    after opsA V (Proc.devRef .tc main_v6) = kKeys (V (Proc.devRef .tc main_arg1)) := by
  delta opsA
  simp (disch := decide) only [after_cons, after_nil, concatenate_pair_eq_cat2, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
  unfold kKeys kRow kCol
  rfl

theorem A_arg1 (V : Valuation τ sig (Elt F)) : after opsA V (Proc.devRef .tc main_arg1) = V (Proc.devRef .tc main_arg1) := by
  delta opsA
  simp (disch := decide) only [after_cons, after_nil, concatenate_pair_eq_cat2, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']

/-! ## Stretch S (operations 9 to 11): the argsort -/

theorem S_ord (V : Valuation τ sig (Elt F)) :
    after opsS V (Proc.devRef .tc main_v7) = ordOf (V (Proc.devRef .tc main_v6)) := by
  delta opsS
  simp (disch := decide) only [after_cons, after_nil, concatenate_pair_eq_cat2, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
  unfold ordOf
  rfl

theorem S_arg1 (V : Valuation τ sig (Elt F)) : after opsS V (Proc.devRef .tc main_arg1) = V (Proc.devRef .tc main_arg1) := by
  delta opsS
  simp (disch := decide) only [after_cons, after_nil, concatenate_pair_eq_cat2, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']

theorem S_v1 (V : Valuation τ sig (Elt F)) : after opsS V (Proc.devRef .tc main_v1) = V (Proc.devRef .tc main_v1) := by
  delta opsS
  simp (disch := decide) only [after_cons, after_nil, concatenate_pair_eq_cat2, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']

theorem S_v3 (V : Valuation τ sig (Elt F)) : after opsS V (Proc.devRef .tc main_v3) = V (Proc.devRef .tc main_v3) := by
  delta opsS
  simp (disch := decide) only [after_cons, after_nil, concatenate_pair_eq_cat2, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']

theorem S_v6 (V : Valuation τ sig (Elt F)) : after opsS V (Proc.devRef .tc main_v6) = V (Proc.devRef .tc main_v6) := by
  delta opsS
  simp (disch := decide) only [after_cons, after_nil, concatenate_pair_eq_cat2, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']

/-! ## Stretch B (operations 12 to 27): the sorted keys and the flags -/

theorem B_isFirst (V : Valuation τ sig (Elt F)) :
    after opsB V (Proc.devRef .tc main_v20) = isFirstOf (atOrd (V (Proc.devRef .tc main_v6)) (V (Proc.devRef .tc main_v7))) := by
  delta opsB
  simp (disch := decide) only [after_cons, after_nil, concatenate_pair_eq_cat2, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
  unfold isFirstOf atOrd wrapE cat2
  rfl

theorem B_arg1 (V : Valuation τ sig (Elt F)) : after opsB V (Proc.devRef .tc main_arg1) = V (Proc.devRef .tc main_arg1) := by
  delta opsB
  simp (disch := decide) only [after_cons, after_nil, concatenate_pair_eq_cat2, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']

theorem B_v1 (V : Valuation τ sig (Elt F)) : after opsB V (Proc.devRef .tc main_v1) = V (Proc.devRef .tc main_v1) := by
  delta opsB
  simp (disch := decide) only [after_cons, after_nil, concatenate_pair_eq_cat2, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']

theorem B_v3 (V : Valuation τ sig (Elt F)) : after opsB V (Proc.devRef .tc main_v3) = V (Proc.devRef .tc main_v3) := by
  delta opsB
  simp (disch := decide) only [after_cons, after_nil, concatenate_pair_eq_cat2, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']

theorem B_v7 (V : Valuation τ sig (Elt F)) : after opsB V (Proc.devRef .tc main_v7) = V (Proc.devRef .tc main_v7) := by
  delta opsB
  simp (disch := decide) only [after_cons, after_nil, concatenate_pair_eq_cat2, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']

/-! ## Stretch C (operations 28 to 40): the sorted rows and the degree -/

theorem C_deg (V : Valuation τ sig (Elt F)) :
    after opsC V (Proc.devRef .tc main_v30) = degOf (atOrd (V (Proc.devRef .tc main_v1)) (V (Proc.devRef .tc main_v7))) (V (Proc.devRef .tc main_v20)) := by
  delta opsC
  simp (disch := decide) only [after_cons, after_nil, concatenate_pair_eq_cat2, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
  unfold degOf atOrd wrapE
  rfl

theorem C_arg1 (V : Valuation τ sig (Elt F)) : after opsC V (Proc.devRef .tc main_arg1) = V (Proc.devRef .tc main_arg1) := by
  delta opsC
  simp (disch := decide) only [after_cons, after_nil, concatenate_pair_eq_cat2, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']

theorem C_v1 (V : Valuation τ sig (Elt F)) : after opsC V (Proc.devRef .tc main_v1) = V (Proc.devRef .tc main_v1) := by
  delta opsC
  simp (disch := decide) only [after_cons, after_nil, concatenate_pair_eq_cat2, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']

theorem C_v3 (V : Valuation τ sig (Elt F)) : after opsC V (Proc.devRef .tc main_v3) = V (Proc.devRef .tc main_v3) := by
  delta opsC
  simp (disch := decide) only [after_cons, after_nil, concatenate_pair_eq_cat2, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']

/-! ## Stretch D (operations 41 to 52): the inverse square root -/

theorem D_dis (V : Valuation τ sig (Elt F)) :
    after opsD V (Proc.devRef .tc main_v37) = disOf (V (Proc.devRef .tc main_v30)) := by
  delta opsD
  simp (disch := decide) only [after_cons, after_nil, concatenate_pair_eq_cat2, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
  unfold disOf
  rfl

theorem D_arg1 (V : Valuation τ sig (Elt F)) : after opsD V (Proc.devRef .tc main_arg1) = V (Proc.devRef .tc main_arg1) := by
  delta opsD
  simp (disch := decide) only [after_cons, after_nil, concatenate_pair_eq_cat2, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']

theorem D_v1 (V : Valuation τ sig (Elt F)) : after opsD V (Proc.devRef .tc main_v1) = V (Proc.devRef .tc main_v1) := by
  delta opsD
  simp (disch := decide) only [after_cons, after_nil, concatenate_pair_eq_cat2, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']

theorem D_v3 (V : Valuation τ sig (Elt F)) : after opsD V (Proc.devRef .tc main_v3) = V (Proc.devRef .tc main_v3) := by
  delta opsD
  simp (disch := decide) only [after_cons, after_nil, concatenate_pair_eq_cat2, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']

/-! ## Stretch E (operations 53 to 71): the two gathers and their product -/

theorem E_prod (V : Valuation τ sig (Elt F)) :
    after opsE V (Proc.devRef .tc main_v52) = prodOf (V (Proc.devRef .tc main_v37)) (V (Proc.devRef .tc main_v1)) (V (Proc.devRef .tc main_v3)) := by
  delta opsE
  simp (disch := decide) only [after_cons, after_nil, concatenate_pair_eq_cat2, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
  unfold prodOf kWrapCol
  rfl

theorem E_arg1 (V : Valuation τ sig (Elt F)) : after opsE V (Proc.devRef .tc main_arg1) = V (Proc.devRef .tc main_arg1) := by
  delta opsE
  simp (disch := decide) only [after_cons, after_nil, concatenate_pair_eq_cat2, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']

/-! ## Stretch F (operations 72 to 80): the two results -/

theorem F_out0 (V : Valuation τ sig (Elt F)) :
    after opsF V (Proc.devRef .tc main_v60) = out0Of (V (Proc.devRef .tc main_v52)) := by
  delta opsF
  simp (disch := decide) only [after_cons, after_nil, concatenate_pair_eq_cat2, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
  unfold out0Of cat2
  rfl

theorem F_out1 (V : Valuation τ sig (Elt F)) :
    after opsF V (Proc.devRef .tc main_v57) = kOut1 (V (Proc.devRef .tc main_arg1)) := by
  delta opsF
  simp (disch := decide) only [after_cons, after_nil, concatenate_pair_eq_cat2, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
  unfold kOut1 cat2
  rfl

/-! ## The whole line -/

theorem all_arg0 (V : Valuation τ sig (Elt F)) : after ops V (Proc.devRef .tc main_arg0) = V (Proc.devRef .tc main_arg0) := by
  delta ops
  simp (disch := decide) only [after_cons, after_nil, concatenate_pair_eq_cat2, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']

theorem all_arg1 (V : Valuation τ sig (Elt F)) : after ops V (Proc.devRef .tc main_arg1) = V (Proc.devRef .tc main_arg1) := by
  delta ops
  simp (disch := decide) only [after_cons, after_nil, concatenate_pair_eq_cat2, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']

/-- After all eighty operations, from any contents: the two results as the stage functions of the edge array. The successive
    stretches' contents are named, and each stretch's facts are carried to the next. -/
theorem after_all (V0 : Valuation τ sig (Elt F)) :
    after ops V0 (Proc.devRef .tc main_v60) = out0 (V0 (Proc.devRef .tc main_arg1))
      ∧ after ops V0 (Proc.devRef .tc main_v57) = kOut1 (V0 (Proc.devRef .tc main_arg1)) := by
  rw [ops_split]
  simp only [after_append]
  generalize hA : after opsA V0 = WA
  generalize hS : after opsS WA = WS
  generalize hB : after opsB WS = WB
  generalize hC : after opsC WB = WC
  generalize hD : after opsD WC = WD
  generalize hE : after opsE WD = WE
  have a_row : WA (Proc.devRef .tc main_v1) = kRow (V0 (Proc.devRef .tc main_arg1)) := by rw [← hA, A_row]
  have a_col : WA (Proc.devRef .tc main_v3) = kCol (V0 (Proc.devRef .tc main_arg1)) := by rw [← hA, A_col]
  have a_keys : WA (Proc.devRef .tc main_v6) = kKeys (V0 (Proc.devRef .tc main_arg1)) := by rw [← hA, A_keys]
  have a_arg : WA (Proc.devRef .tc main_arg1) = V0 (Proc.devRef .tc main_arg1) := by rw [← hA, A_arg1]
  have s_ord : WS (Proc.devRef .tc main_v7) = ordOf (kKeys (V0 (Proc.devRef .tc main_arg1))) := by rw [← hS, S_ord, a_keys]
  have s_row : WS (Proc.devRef .tc main_v1) = kRow (V0 (Proc.devRef .tc main_arg1)) := by rw [← hS, S_v1, a_row]
  have s_col : WS (Proc.devRef .tc main_v3) = kCol (V0 (Proc.devRef .tc main_arg1)) := by rw [← hS, S_v3, a_col]
  have s_keys : WS (Proc.devRef .tc main_v6) = kKeys (V0 (Proc.devRef .tc main_arg1)) := by rw [← hS, S_v6, a_keys]
  have s_arg : WS (Proc.devRef .tc main_arg1) = V0 (Proc.devRef .tc main_arg1) := by rw [← hS, S_arg1, a_arg]
  have b_if : WB (Proc.devRef .tc main_v20) = isFirstOf (atOrd (kKeys (V0 (Proc.devRef .tc main_arg1))) (ordOf (kKeys (V0 (Proc.devRef .tc main_arg1))))) := by
    rw [← hB, B_isFirst, s_keys, s_ord]
  have b_row : WB (Proc.devRef .tc main_v1) = kRow (V0 (Proc.devRef .tc main_arg1)) := by rw [← hB, B_v1, s_row]
  have b_col : WB (Proc.devRef .tc main_v3) = kCol (V0 (Proc.devRef .tc main_arg1)) := by rw [← hB, B_v3, s_col]
  have b_ord : WB (Proc.devRef .tc main_v7) = ordOf (kKeys (V0 (Proc.devRef .tc main_arg1))) := by rw [← hB, B_v7, s_ord]
  have b_arg : WB (Proc.devRef .tc main_arg1) = V0 (Proc.devRef .tc main_arg1) := by rw [← hB, B_arg1, s_arg]
  have c_deg : WC (Proc.devRef .tc main_v30) = degOf (atOrd (kRow (V0 (Proc.devRef .tc main_arg1))) (ordOf (kKeys (V0 (Proc.devRef .tc main_arg1)))))
      (isFirstOf (atOrd (kKeys (V0 (Proc.devRef .tc main_arg1))) (ordOf (kKeys (V0 (Proc.devRef .tc main_arg1)))))) := by
    rw [← hC, C_deg, b_row, b_ord, b_if]
  have c_row : WC (Proc.devRef .tc main_v1) = kRow (V0 (Proc.devRef .tc main_arg1)) := by rw [← hC, C_v1, b_row]
  have c_col : WC (Proc.devRef .tc main_v3) = kCol (V0 (Proc.devRef .tc main_arg1)) := by rw [← hC, C_v3, b_col]
  have c_arg : WC (Proc.devRef .tc main_arg1) = V0 (Proc.devRef .tc main_arg1) := by rw [← hC, C_arg1, b_arg]
  have d_dis : WD (Proc.devRef .tc main_v37) = disOf (degOf (atOrd (kRow (V0 (Proc.devRef .tc main_arg1))) (ordOf (kKeys (V0 (Proc.devRef .tc main_arg1)))))
      (isFirstOf (atOrd (kKeys (V0 (Proc.devRef .tc main_arg1))) (ordOf (kKeys (V0 (Proc.devRef .tc main_arg1))))))) := by
    rw [← hD, D_dis, c_deg]
  have d_row : WD (Proc.devRef .tc main_v1) = kRow (V0 (Proc.devRef .tc main_arg1)) := by rw [← hD, D_v1, c_row]
  have d_col : WD (Proc.devRef .tc main_v3) = kCol (V0 (Proc.devRef .tc main_arg1)) := by rw [← hD, D_v3, c_col]
  have d_arg : WD (Proc.devRef .tc main_arg1) = V0 (Proc.devRef .tc main_arg1) := by rw [← hD, D_arg1, c_arg]
  have e_prod : WE (Proc.devRef .tc main_v52) = prodOf (disOf (degOf (atOrd (kRow (V0 (Proc.devRef .tc main_arg1))) (ordOf (kKeys (V0 (Proc.devRef .tc main_arg1)))))
      (isFirstOf (atOrd (kKeys (V0 (Proc.devRef .tc main_arg1))) (ordOf (kKeys (V0 (Proc.devRef .tc main_arg1)))))))) (kRow (V0 (Proc.devRef .tc main_arg1))) (kCol (V0 (Proc.devRef .tc main_arg1))) := by
    rw [← hE, E_prod, d_dis, d_row, d_col]
  have e_arg : WE (Proc.devRef .tc main_arg1) = V0 (Proc.devRef .tc main_arg1) := by rw [← hE, E_arg1, d_arg]
  refine ⟨?_, ?_⟩
  · rw [F_out0, e_prod]; rfl
  · rw [F_out1, e_arg]

/-- THE REFERENCE'S RUN: every weakly fair execution of @main terminates with the values result at `out0` of the edge array,
    the indices result at the diagonal joined to the edge array, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v60) = out0 (m ((c.tc : Thread nD τ).loc main_arg1))
      ∧ r.2.mem ((c.tc : Thread nD τ).loc main_v57) = kOut1 (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v60).trans (after_all (launchContents m c)).1,
      (h c main_v57).trans (after_all (launchContents m c)).2,
      (h c main_arg0).trans (all_arg0 (launchContents m c)),
      (h c main_arg1).trans (all_arg1 (launchContents m c))⟩)
    (run_seq scopedRefs_eq scopedSems_eq defs main (fun _ => ops) main_eq (fun _ => ops_sub) m ρ)

end Cert.ReferenceIdeal.Stages

end
-- ==== Proof.LibSortCarry.lean ====
import Idealize.ShloMosaic.Lib.StableHlo.Predicate
import Idealize.ShloMosaic.Lib.SortFacts
import Idealize.ShloMosaic.Lib.Pipeline.Value

noncomputable section

namespace Cert.Lib.SortCarry

open Idealize.ShloMosaic
open Idealize.ShloMosaic.StableHlo

abbrev V1 (n : Nat) : Shape := ⟨1, ![n]⟩
abbrev C1 (n : Nat) : Shape := ⟨2, ![n, 1]⟩
abbrev S0 : Shape := ⟨0, ![]⟩

/-- The stable sorting permutation of the positions of a vector of signed words by "less than":
    entry k is the position whose word lands at k. -/
def keyPerm {n : Nat} (keys : IVec (V1 n) 32) : Fin n → Fin n :=
  sortedFrom (fun k k' => IntOp.cmpi .slt (keys (Shape.Idx.ofFin k)) (keys (Shape.Idx.ofFin k')) == 1#1)

/-- A two-operand sort whose comparator reads only the first components returns, as its first
    component, the keys read through the keys' own sorting permutation. -/
theorem sort2_fst_apply {n : Nat} {β : Type}
    (cmp : BitVec 32 × β → BitVec 32 × β → BitVec 1)
    (hcmp : ∀ l r, cmp l r = IntOp.cmpi .slt l.1 r.1)
    (keys : IVec (V1 n) 32) (y : (V1 n).Idx → β) (j : (V1 n).Idx) :
    (Host.sort2 (V1 n) 0 cmp keys y).1 j = keys (Shape.Idx.ofFin (keyPerm keys (j 0))) := by
  unfold Host.sort2 keyPerm
  simp [hcmp]

/-- … and, as its second component, the payload read through that same permutation, which does
    not depend on the payload. -/
theorem sort2_snd_apply {n : Nat} {β : Type}
    (cmp : BitVec 32 × β → BitVec 32 × β → BitVec 1)
    (hcmp : ∀ l r, cmp l r = IntOp.cmpi .slt l.1 r.1)
    (keys : IVec (V1 n) 32) (y : (V1 n).Idx → β) (j : (V1 n).Idx) :
    (Host.sort2 (V1 n) 0 cmp keys y).2 j = y (Shape.Idx.ofFin (keyPerm keys (j 0))) := by
  unfold Host.sort2 keyPerm
  simp [hcmp]

/-- The wrapped position word: the second component of sorting (keys, iota) is the sorting
    permutation itself as a word, which is non-negative, so the negative-index wrap leaves it alone. -/
theorem wrapped_ord_apply {n : Nat} (hn' : n < 2 ^ 31)
    (cmp : BitVec 32 × BitVec 32 → BitVec 32 × BitVec 32 → BitVec 1)
    (hcmp : ∀ l r, cmp l r = IntOp.cmpi .slt l.1 r.1)
    (hs : S0.BroadcastsInDim (V1 n) (![] : Fin 0 → Fin (V1 n).rank))
    (keys : IVec (V1 n) 32) (p : Fin n) :
    (select (cmpi .slt (Host.sort2 (V1 n) 0 cmp keys (iotaInDim (V1 n) 32 0)).2 (broadcastInDim (V1 n) ![] hs (constantI S0 32 0#32)))
          (addi (Host.sort2 (V1 n) 0 cmp keys (iotaInDim (V1 n) 32 0)).2 (broadcastInDim (V1 n) ![] hs (constantI S0 32 (BitVec.ofNat 32 n))))
          (Host.sort2 (V1 n) 0 cmp keys (iotaInDim (V1 n) 32 0)).2) (Shape.Idx.ofFin p)
      = BitVec.ofNat 32 (keyPerm keys p).val := by
  have hord : (Host.sort2 (V1 n) 0 cmp keys (iotaInDim (V1 n) 32 0)).2 (Shape.Idx.ofFin p)
      = BitVec.ofNat 32 (keyPerm keys p).val := by
    rw [sort2_snd_apply cmp hcmp, Shape.Idx.ofFin_zero]
    exact Predicate.iota_apply _
  have hlt : (keyPerm keys p).val < 2 ^ 31 := lt_trans (keyPerm keys p).isLt hn'
  have hnot : IntOp.cmpi .slt (BitVec.ofNat 32 (keyPerm keys p).val) 0#32 ≠ 1#1 := by
    intro h
    have h' := (Predicate.slt_iff_toNat (a := BitVec.ofNat 32 (keyPerm keys p).val) (b := 0#32)
      (by rw [BitVec.toNat_ofNat]; exact lt_of_le_of_lt (Nat.mod_le _ _) hlt) (by simp)).mp h
    simp at h'
  simp only [select, cmpi, addi, hord, Predicate.bcast_scalar hs (by decide), constantI, Scalar.select]
  exact if_neg hnot

/-- A take-shaped gather whose start-index column holds, at row p, the word of a position q of the
    table reads the table at q: the signed reading and the clamp change nothing for a position
    inside the table. -/
theorem gather_at_position {α : Type} {n : Nat} (hn : 0 < n) (hn' : n < 2 ^ 31)
    (d : GatherDims (V1 n) (C1 n) (V1 n))
    (hcoll : d.collapsedSliceDims = [0]) (hob : d.operandBatchingDims = [])
    (hsim : d.startIndexMap = [0]) (hivd : d.indexVectorDim = 1)
    (x : (V1 n).Idx → α) (idx : IVec (C1 n) 32) (p q : Fin n)
    (hidx : idx (Predicate.ixP p) = BitVec.ofNat 32 q.val) :
    Host.gather d x idx (Shape.Idx.ofFin p) = x (Shape.Idx.ofFin q) := by
  rw [Predicate.gather_take d hcoll hob hsim hivd x idx p hn]
  have hq : q.val < 2 ^ 31 := lt_trans q.isLt hn'
  have hmin : min (idx (Predicate.ixP p)).toInt.toNat (n - 1) = q.val := by
    rw [hidx, Predicate.toInt_ofNat_small _ hq, Int.toNat_natCast]
    have := q.isLt
    omega
  congr 2
  exact Fin.ext hmin

/-- The argsort road and the carried-payload road give the same SECOND component: gathering a
    vector at the (wrapped) positions that sorting (keys, iota) returns is the vector carried
    through the sort of (keys, vector) as its payload. -/
theorem sort2_snd_eq_gather_argsort {n : Nat} (hn : 0 < n) (hn' : n < 2 ^ 31)
    (cmp : BitVec 32 × BitVec 32 → BitVec 32 × BitVec 32 → BitVec 1)
    (hcmp : ∀ l r, cmp l r = IntOp.cmpi .slt l.1 r.1)
    (d : GatherDims (V1 n) (C1 n) (V1 n))
    (hcoll : d.collapsedSliceDims = [0]) (hob : d.operandBatchingDims = [])
    (hsim : d.startIndexMap = [0]) (hivd : d.indexVectorDim = 1)
    (hs : S0.BroadcastsInDim (V1 n) (![] : Fin 0 → Fin (V1 n).rank))
    (hb : (V1 n).BroadcastsInDim (C1 n) ![0])
    (keys y : IVec (V1 n) 32) :
    Host.gather d y (broadcastInDim (C1 n) ![0] hb
        (select (cmpi .slt (Host.sort2 (V1 n) 0 cmp keys (iotaInDim (V1 n) 32 0)).2 (broadcastInDim (V1 n) ![] hs (constantI S0 32 0#32)))
          (addi (Host.sort2 (V1 n) 0 cmp keys (iotaInDim (V1 n) 32 0)).2 (broadcastInDim (V1 n) ![] hs (constantI S0 32 (BitVec.ofNat 32 n))))
          (Host.sort2 (V1 n) 0 cmp keys (iotaInDim (V1 n) 32 0)).2))
      = (Host.sort2 (V1 n) 0 cmp keys y).2 := by
  funext j
  obtain ⟨p, rfl⟩ : ∃ p : Fin n, j = Shape.Idx.ofFin p := ⟨j 0, Shape.Idx.eq_ofFin j⟩
  rw [sort2_snd_apply cmp hcmp, Shape.Idx.ofFin_zero]
  refine gather_at_position hn hn' d hcoll hob hsim hivd _ _ p (keyPerm keys p) ?_
  rw [Predicate.bcast_col1 hb]
  exact wrapped_ord_apply hn' cmp hcmp hs keys p

/-- … and the same FIRST component: gathering the keys at those positions gives the sorted keys,
    whatever payload the sort carries. -/
theorem sort2_fst_eq_gather_argsort {n : Nat} (hn : 0 < n) (hn' : n < 2 ^ 31)
    (cmp : BitVec 32 × BitVec 32 → BitVec 32 × BitVec 32 → BitVec 1)
    (hcmp : ∀ l r, cmp l r = IntOp.cmpi .slt l.1 r.1)
    (d : GatherDims (V1 n) (C1 n) (V1 n))
    (hcoll : d.collapsedSliceDims = [0]) (hob : d.operandBatchingDims = [])
    (hsim : d.startIndexMap = [0]) (hivd : d.indexVectorDim = 1)
    (hs : S0.BroadcastsInDim (V1 n) (![] : Fin 0 → Fin (V1 n).rank))
    (hb : (V1 n).BroadcastsInDim (C1 n) ![0])
    (keys y : IVec (V1 n) 32) :
    Host.gather d keys (broadcastInDim (C1 n) ![0] hb
        (select (cmpi .slt (Host.sort2 (V1 n) 0 cmp keys (iotaInDim (V1 n) 32 0)).2 (broadcastInDim (V1 n) ![] hs (constantI S0 32 0#32)))
          (addi (Host.sort2 (V1 n) 0 cmp keys (iotaInDim (V1 n) 32 0)).2 (broadcastInDim (V1 n) ![] hs (constantI S0 32 (BitVec.ofNat 32 n))))
          (Host.sort2 (V1 n) 0 cmp keys (iotaInDim (V1 n) 32 0)).2))
      = (Host.sort2 (V1 n) 0 cmp keys y).1 := by
  funext j
  obtain ⟨p, rfl⟩ : ∃ p : Fin n, j = Shape.Idx.ofFin p := ⟨j 0, Shape.Idx.eq_ofFin j⟩
  rw [sort2_fst_apply cmp hcmp, Shape.Idx.ofFin_zero]
  refine gather_at_position hn hn' d hcoll hob hsim hivd _ _ p (keyPerm keys p) ?_
  rw [Predicate.bcast_col1 hb]
  exact wrapped_ord_apply hn' cmp hcmp hs keys p

end Cert.Lib.SortCarry

end
-- ==== Proof.LibPadMask.lean ====
import Idealize.ShloMosaic.Lib.StableHlo.Predicate
import Idealize.ShloMosaic.Lib.SortFacts
import Idealize.ShloMosaic.Lib.Pipeline.Value
import Idealize.ShloMosaic.Lib.KernelVsHost
import Idealize.ShloMosaic.PureOps.Reduce

noncomputable section

namespace Cert.Lib.PadMask

open Idealize.ShloMosaic

abbrev V1 (n : Nat) : Shape := ⟨1, ![n]⟩
abbrev C1 (n : Nat) : Shape := ⟨2, ![n, 1]⟩
abbrev S0 : Shape := ⟨0, ![]⟩

/-- A left fold by `and` from 1 over one-bit words that are all 1 is 1. -/
theorem foldl_andi_of_all_one {ι : Type} (f : ι → BitVec 1) (hf : ∀ i, f i = 1#1) :
    ∀ l : List ι, l.foldl (fun r i => IntOp.andi r (f i)) 1#1 = 1#1
  | [] => rfl
  | a :: l => by
    rw [List.foldl_cons, hf a]
    exact foldl_andi_of_all_one f hf l

/-- A signed 32-bit word `a` with `0 ≤ a < N` (and `N < 2³¹`) is left alone by the wrap
    `a < 0 ? a + N : a`, and the wrapped word passes both bounds `0 ≤ · ` and `· ≤ N − 1`. -/
theorem wrap_in_range (a : BitVec 32) (N : Nat) (hN' : N < 2 ^ 31) (h0 : 0 ≤ a.toInt) (h1 : a.toInt < N) :
    IntOp.andi
      (IntOp.cmpi .sge (Scalar.select (IntOp.cmpi .slt a 0#32) (IntOp.addi a (BitVec.ofNat 32 N)) a) 0#32)
      (IntOp.cmpi .sle (Scalar.select (IntOp.cmpi .slt a 0#32) (IntOp.addi a (BitVec.ofNat 32 N)) a)
        (BitVec.ofNat 32 (N - 1))) = 1#1 := by
  have hz : (0#32 : BitVec 32).toInt = 0 := by decide
  have hlt : IntOp.cmpi .slt a 0#32 = 0#1 := by
    simp only [IntOp.cmpi, BitVec.slt, hz]
    rw [decide_eq_false (by omega)]; rfl
  have hsel : Scalar.select (IntOp.cmpi .slt a 0#32) (IntOp.addi a (BitVec.ofNat 32 N)) a = a := by
    rw [hlt]; unfold Scalar.select; rw [if_neg (by decide)]
  rw [hsel]
  have hge : IntOp.cmpi .sge a 0#32 = 1#1 := by
    simp only [IntOp.cmpi, BitVec.sle, hz]
    rw [decide_eq_true h0]; rfl
  have hle : IntOp.cmpi .sle a (BitVec.ofNat 32 (N - 1)) = 1#1 := by
    simp only [IntOp.cmpi, BitVec.sle, StableHlo.Predicate.toInt_ofNat_small (N - 1) (by omega)]
    rw [decide_eq_true (by omega)]; rfl
  rw [hge, hle]; rfl

/-- The take's in-bounds mask is all ones when every index lies in [0, N): the wrap
    `ix < 0 ? ix + N : ix` leaves each index alone, both bounds `0 ≤ w` and `w ≤ N − 1` hold at
    every entry of the [n × 1] column, and the `and` along the unit axis from 1 is 1. -/
theorem take_mask_all_ones {n : Nat} (N : Nat) (hN : 0 < N) (hN' : N < 2 ^ 31)
    (hs : S0.BroadcastsInDim (V1 n) (![] : Fin 0 → Fin (V1 n).rank))
    (hb : (V1 n).BroadcastsInDim (C1 n) ![0])
    (hs2 : S0.BroadcastsInDim (C1 n) (![] : Fin 0 → Fin (C1 n).rank))
    (hb1 : (V1 1).BroadcastsInDim (⟨2, ![1, 1]⟩ : Shape) ![1])
    (hb2 : (⟨2, ![1, 1]⟩ : Shape).BroadcastsInDim (C1 n) ![0, 1])
    (hr : (C1 n).ReducesTo [1] (V1 n)) (hu : 0 < S0.numel)
    (ix : IVec (V1 n) 32) (hix : ∀ i, 0 ≤ (ix i).toInt ∧ (ix i).toInt < N) :
    Host.reduce IntOp.andi
      (andi
        (cmpi .sge (broadcastInDim (C1 n) ![0] hb (select (cmpi .slt ix (broadcastInDim (V1 n) ![] hs (constantI S0 32 0#32))) (addi ix (broadcastInDim (V1 n) ![] hs (constantI S0 32 (BitVec.ofNat 32 N)))) ix))
          (broadcastInDim (C1 n) ![] hs2 (constantI S0 32 0#32)))
        (cmpi .sle (broadcastInDim (C1 n) ![0] hb (select (cmpi .slt ix (broadcastInDim (V1 n) ![] hs (constantI S0 32 0#32))) (addi ix (broadcastInDim (V1 n) ![] hs (constantI S0 32 (BitVec.ofNat 32 N)))) ix))
          (broadcastInDim (C1 n) ![0, 1] hb2 (broadcastInDim (⟨2, ![1, 1]⟩ : Shape) ![1] hb1 (constantI (V1 1) 32 (BitVec.ofNat 32 (N - 1)))))))
      (constantI S0 1 1#1) hr hu
      = fun _ => 1#1 := by
  funext j
  rw [Host.reduce_eq_foldl]
  show List.foldl _ (1#1) _ = 1#1
  refine foldl_andi_of_all_one _ (fun i => ?_) _
  simp only [andi, cmpi, select, addi, broadcastInDim, constantI]
  exact wrap_in_range _ N hN' (hix _).1 (hix _).2

/-- A pad by ONE entry in front is the concatenation of that entry and the vector: position 0 reads
    the padding value on both sides, position `p + 1` reads `x p` on both sides. -/
theorem pad_front_eq_concat {α : Type} {k m : Nat} (hm : m = k + 1) (x : (V1 k).Idx → α) (v : S0.Idx → α)
    (hp : (V1 k).Pads ![1] ![0] ![0] (V1 m)) (hu : 0 < S0.numel)
    (hb1 : S0.BroadcastsInDim (V1 1) (![] : Fin 0 → Fin (V1 1).rank))
    (hc : Shape.Concatenates [V1 1, V1 k] (V1 m) 0) :
    pad (V1 m) ![1] ![0] ![0] x v hp hu
      = concatenate (V1 m) 0 [⟨V1 1, broadcastInDim (V1 1) ![] hb1 v⟩, ⟨V1 k, x⟩] hc := by
  funext j
  have hj : (j 0).val < m := (j 0).isLt
  by_cases h0 : (j 0).val = 0
  · -- position 0: the padding value on both sides
    have hL : pad (V1 m) ![1] ![0] ![0] x v hp hu j = v (Shape.Idx.first hu) :=
      pad_apply_of_not_inside _ _ _ x v hp hu j (0 : Fin 1) (by
        intro hin
        have e : 1 ≤ (j 0).val := hin.1
        omega)
    have hR : concatenate (V1 m) 0 [⟨V1 1, broadcastInDim (V1 1) ![] hb1 v⟩, ⟨V1 k, x⟩] hc j
        = broadcastInDim (V1 1) ![] hb1 v (Shape.Idx.ofFin (0 : Fin 1)) :=
      concatenate_pair_apply_left (t := V1 m) (s₁ := V1 1) (s₂ := V1 k) (0 : Fin 1) (broadcastInDim (V1 1) ![] hb1 v) x hc j rfl
        (Shape.Idx.ofFin (0 : Fin 1)) (by
        intro b
        have hb : b = 0 := Subsingleton.elim _ _
        subst hb
        show (0 : Nat) = (j 0).val
        omega)
    rw [hL, hR, StableHlo.Predicate.bcast_scalar hb1 hu v]
  · -- position p + 1: the vector at p on both sides
    have hp1 : (j 0).val - 1 < k := by omega
    have hL : pad (V1 m) ![1] ![0] ![0] x v hp hu j = x (Shape.Idx.ofFin ⟨(j 0).val - 1, hp1⟩) :=
      pad_apply_of_inside _ _ _ x v hp hu j (Shape.Idx.ofFin ⟨(j 0).val - 1, hp1⟩) (by
        intro a
        have ha : a = 0 := Subsingleton.elim _ _
        subst ha
        show (j 0).val = 1 + ((j 0).val - 1) * (0 + 1)
        omega)
    have hR : concatenate (V1 m) 0 [⟨V1 1, broadcastInDim (V1 1) ![] hb1 v⟩, ⟨V1 k, x⟩] hc j
        = x (Shape.Idx.ofFin ⟨(j 0).val - 1, hp1⟩) :=
      concatenate_pair_apply_right (t := V1 m) (s₁ := V1 1) (s₂ := V1 k) (0 : Fin 1) (broadcastInDim (V1 1) ![] hb1 v) x hc j rfl rfl
        (Shape.Idx.ofFin ⟨(j 0).val - 1, hp1⟩)
        (by
          intro b hb
          exact absurd (Subsingleton.elim _ _) hb)
        (by
          show ((j 0).val - 1) + 1 = (j 0).val
          omega)
    rw [hL, hR]

end Cert.Lib.PadMask

end
-- ==== Proof.DegInvSqrt.lean ====
import proofs.«408142_j59356448031141_3_alg».proof.Proof.Gen.KernelIdeal.Skeleton
import Idealize.ShloMosaic.Lib.Pipeline.Value
import Idealize.ShloMosaic.Lib.ValueIdx
import Idealize.ShloMosaic.Lib.KernelVsHost
import Idealize.ShloMosaic.PureOps.Ideal

noncomputable section

namespace Cert.DegInvSqrt

open Idealize.ShloMosaic Cert.KernelIdeal Cert.KernelIdeal.Gen

open Idealize.ShloMosaic.ValueIdx

/-- The per-element function: for a signed word w, rsqrt (max (w as a real, 1)) when w > 0, else 0. -/
def elem (w : BitVec 32) : Ideal .f32 :=
  Scalar.select (IntOp.cmpi .sgt w 0#32)
    (Ideal.rsqrt (max (FloatOps.sitofp (F := Ideal) .f32 w) (Ideal.ofBits .f32 0x3F800000#32)))
    (Ideal.ofBits .f32 0x00000000#32)

/-- The kernel's payload is that function applied element by element. -/
theorem k0_pay1_eq (v : IVec S784x128 32) : k0_pay1 (F := Ideal) v = fun i => elem (v i) := by
  unfold k0_pay1
  simp only [shapeCast_self]
  rfl

/-- A shape cast commutes with an element-by-element map. -/
theorem shapeCast_map {s t : Shape} {α β : Type} (f : α → β) (v : s.Idx → α) (h : s.ShapeCasts t) :
    shapeCast t (fun i => f (v i)) h = fun j => f (shapeCast t v h j) := rfl

/-- The host's expression is the same function applied element by element. -/
theorem host_eq (deg : IVec S100000 32) :
    select (cmpi .sgt deg (broadcastInDim S100000 ![] bcast_S_S100000 (constantI S_ 32 0#32)))
        (Host.rsqrt (maximumf (sitofp (F := Ideal) .f32 deg) (broadcastInDim S100000 ![] bcast_S_S100000 (constant (F := Ideal) S_ .f32 0x3F800000#32))))
        (broadcastInDim S100000 ![] bcast_S_S100000 (id (constant (F := Ideal) S_ .f32 0x00000000#32)))
      = fun j => elem (deg j) := by
  funext j
  rfl

/-- The kernel's padded, re-laid, per-element `deg ↦ deg > 0 ? rsqrt (max (deg, 1)) : 0` cut back to the first 100000 entries
    is the host's same expression on the unpadded vector, at the ideal instance. -/
theorem dis_eq (deg : IVec S100000 32) :
    extractStridedSlice S100000 ![0]
      (shapeCast S100352
        (k0_pay1 (F := Ideal)
          (shapeCast S784x128 (pad S100352 ![0] ![352] ![0] deg (id (constantI S_ 32 0#32)) pads_S100000_S100352_03520 h_S_)
            shapeCasts_S100352_S784x128))
        shapeCasts_S784x128_S100352)
      slices_S100352_S100000_0
    = select (cmpi .sgt deg (broadcastInDim S100000 ![] bcast_S_S100000 (constantI S_ 32 0#32)))
        (Host.rsqrt (maximumf (sitofp (F := Ideal) .f32 deg) (broadcastInDim S100000 ![] bcast_S_S100000 (constant (F := Ideal) S_ .f32 0x3F800000#32))))
        (broadcastInDim S100000 ![] bcast_S_S100000 (id (constant (F := Ideal) S_ .f32 0x00000000#32))) := by
  rw [host_eq, k0_pay1_eq, shapeCast_map, shapeCast_shapeCast]
  funext j
  obtain ⟨p, rfl⟩ : ∃ p : Fin 100000, j = ix1 p := ⟨j 0, eq_ix1 j⟩
  have hp := p.isLt
  rw [extractStridedSlice_apply ![0] _ slices_S100352_S100000_0 (ix1 p) (ix1 ⟨p.val, by omega⟩)
    (fun a => by match a with | ⟨0, _⟩ => simp)]
  show elem _ = elem _
  congr 1
  exact pad_apply_of_inside ![0] ![352] ![0] deg _ pads_S100000_S100352_03520 h_S_ (ix1 ⟨p.val, by omega⟩) (ix1 p)
    (fun a => by match a with | ⟨0, _⟩ => simp)

end Cert.DegInvSqrt

end
-- ==== Proof.TakeInRange.lean ====
import proofs.«408142_j59356448031141_3_alg».proof.Proof.KernelTerm
import proofs.«408142_j59356448031141_3_alg».proof.Proof.LibPadMask
import Idealize.ShloMosaic.Lib.Pipeline.Value
import Idealize.ShloMosaic.Lib.ValueIdx

noncomputable section

namespace Cert.TakeInRange

open Idealize.ShloMosaic Cert.KernelIdeal Cert.KernelIdeal.Gen Cert.KernelIdeal.Stage

variable {F : FTy → Type} [FloatOps F]

/-- Every source node is an entry of the edge array, so it inherits the array's range. -/
theorem row_range (A : IVec S2x3200000 32) (hA : ∀ j : S2x3200000.Idx, 0 ≤ (A j).toInt ∧ (A j).toInt < 100000) :
    ∀ i : S3200000.Idx, 0 ≤ (row A i).toInt ∧ (row A i).toInt < 100000 := by
  intro i
  obtain ⟨j, hj⟩ : ∃ j, row A i = A j := ⟨_, rfl⟩
  rw [hj]
  exact hA j

/-- Likewise every target node. -/
theorem col_range (A : IVec S2x3200000 32) (hA : ∀ j : S2x3200000.Idx, 0 ≤ (A j).toInt ∧ (A j).toInt < 100000) :
    ∀ i : S3200000.Idx, 0 ≤ (col A i).toInt ∧ (col A i).toInt < 100000 := by
  intro i
  obtain ⟨j, hj⟩ : ∃ j, col A i = A j := ⟨_, rfl⟩
  rw [hj]
  exact hA j

/-- With every index in [0, 100000) the take's range test passes everywhere, so the take with fill is the plain gather
    at the wrapped indices. -/
theorem take_eq_gather (d : FVec F S100000 .f32) (ix : IVec S3200000 32)
    (hix : ∀ i : S3200000.Idx, 0 ≤ (ix i).toInt ∧ (ix i).toInt < 100000) :
    take d ix = Host.gather gather_S100000_S3200000x1_S3200000_n_0_n_n_0_1_1 d (wrapCol ix) := by
  have h : inRange ix = fun _ => 1#1 :=
    Cert.Lib.PadMask.take_mask_all_ones (n := 3200000) 100000 (by decide) (by decide) bcast_S_S3200000
      bcast_S3200000_S3200000x1_0 bcast_S_S3200000x1 bcast_S1_S1x1_1 bcast_S1x1_S3200000x1_0_1
      reducesTo_S3200000x1_S3200000_d1 h_S_ ix hix
  unfold take
  rw [h]
  funext i
  simp only [select, Scalar.select]
  exact if_pos rfl

end Cert.TakeInRange

end
-- ==== Proof.Bridge.lean ====
/-
  The two programs compute one function of the edge array, on edge arrays whose entries are node numbers in [0, 100000).
  Sorting the pairs (key, row) stably by key permutes both by the positions an argsort of the keys returns, so the kernel's
  carried-through sort and the reference's argsort-then-gather give the same sorted keys and the same sorted rows; the
  flags "first of its run of equal keys" are then the same vector, written once as a pad in front and once as a
  concatenation; hence the same degrees. The kernel pads the degrees to 784 × 128, applies `deg > 0 ? rsqrt (max (deg, 1)) : 0`
  element by element in its pallas_call and cuts the padding off again, which is the reference's same expression on the
  unpadded vector. Last, with every node number in range the kernel's takes never use their out-of-range fill, so they are the
  reference's plain gathers.
-/
import proofs.«408142_j59356448031141_3_alg».proof.Proof.KernelTerm
import proofs.«408142_j59356448031141_3_alg».proof.Proof.RefTerm
import proofs.«408142_j59356448031141_3_alg».proof.Proof.LibSortCarry
import proofs.«408142_j59356448031141_3_alg».proof.Proof.LibPadMask
import proofs.«408142_j59356448031141_3_alg».proof.Proof.DegInvSqrt
import proofs.«408142_j59356448031141_3_alg».proof.Proof.TakeInRange

noncomputable section

namespace Cert.Bridge

open Idealize.ShloMosaic
open Cert.KernelIdeal (S2x3200000 S3200000 S100000)

/-- The two programs' sort comparators are one function: signed "less than" on the keys. -/
theorem cmp_eq : Cert.ReferenceIdeal.comparator_i32_i32_d0 = Cert.KernelIdeal.comparator_i32_i32_d0 := rfl

/-- The sorted keys: gathered at the argsort's positions, or carried through the sort. -/
theorem sortedKeys_eq (A : IVec S2x3200000 32) :
    Cert.ReferenceIdeal.Stage.atOrd (Cert.KernelIdeal.Stage.keys A) (Cert.ReferenceIdeal.Stage.ordOf (Cert.KernelIdeal.Stage.keys A))
      = Cert.KernelIdeal.Stage.sortedKeys A := by
  unfold Cert.ReferenceIdeal.Stage.atOrd Cert.ReferenceIdeal.Stage.wrapE Cert.ReferenceIdeal.Stage.ordOf Cert.KernelIdeal.Stage.sortedKeys
  rw [← cmp_eq]
  exact Cert.Lib.SortCarry.sort2_fst_eq_gather_argsort (n := 3200000) (by decide) (by decide)
    Cert.ReferenceIdeal.comparator_i32_i32_d0 (fun _ _ => rfl)
    Cert.ReferenceIdeal.gather_S3200000_S3200000x1_S3200000_n_0_n_n_0_1_1 rfl rfl rfl rfl
    Cert.ReferenceIdeal.Gen.bcast_S_S3200000 Cert.ReferenceIdeal.Gen.bcast_S3200000_S3200000x1_0
    (Cert.KernelIdeal.Stage.keys A) (Cert.KernelIdeal.Stage.row A)

/-- The sorted rows likewise. -/
theorem sortedRows_eq (A : IVec S2x3200000 32) :
    Cert.ReferenceIdeal.Stage.atOrd (Cert.KernelIdeal.Stage.row A) (Cert.ReferenceIdeal.Stage.ordOf (Cert.KernelIdeal.Stage.keys A))
      = Cert.KernelIdeal.Stage.sortedRows A := by
  unfold Cert.ReferenceIdeal.Stage.atOrd Cert.ReferenceIdeal.Stage.wrapE Cert.ReferenceIdeal.Stage.ordOf Cert.KernelIdeal.Stage.sortedRows
  rw [← cmp_eq]
  exact Cert.Lib.SortCarry.sort2_snd_eq_gather_argsort (n := 3200000) (by decide) (by decide)
    Cert.ReferenceIdeal.comparator_i32_i32_d0 (fun _ _ => rfl)
    Cert.ReferenceIdeal.gather_S3200000_S3200000x1_S3200000_n_0_n_n_0_1_1 rfl rfl rfl rfl
    Cert.ReferenceIdeal.Gen.bcast_S_S3200000 Cert.ReferenceIdeal.Gen.bcast_S3200000_S3200000x1_0
    (Cert.KernelIdeal.Stage.keys A) (Cert.KernelIdeal.Stage.row A)

/-- The flags: a pad by one entry in front is the concatenation with that entry. -/
theorem isFirst_eq (A : IVec S2x3200000 32) :
    Cert.ReferenceIdeal.Stage.isFirstOf (Cert.KernelIdeal.Stage.sortedKeys A) = Cert.KernelIdeal.Stage.isFirst A := by
  unfold Cert.ReferenceIdeal.Stage.isFirstOf Cert.KernelIdeal.Stage.isFirst
  exact (Cert.Lib.PadMask.pad_front_eq_concat (k := 3199999) (m := 3200000) rfl _ (constantI Cert.KernelIdeal.S_ 32 1#32)
    Cert.KernelIdeal.Gen.pads_S3199999_S3200000_100 Cert.KernelIdeal.Gen.h_S_ Cert.ReferenceIdeal.Gen.bcast_S_S1
    Cert.ReferenceIdeal.Gen.concatenates_S1_S3199999_S3200000_d0).symm

/-- The degrees. -/
theorem deg_eq (A : IVec S2x3200000 32) :
    Cert.ReferenceIdeal.Stage.degOf (Cert.ReferenceIdeal.Stage.atOrd (Cert.KernelIdeal.Stage.row A) (Cert.ReferenceIdeal.Stage.ordOf (Cert.KernelIdeal.Stage.keys A)))
        (Cert.ReferenceIdeal.Stage.isFirstOf (Cert.ReferenceIdeal.Stage.atOrd (Cert.KernelIdeal.Stage.keys A) (Cert.ReferenceIdeal.Stage.ordOf (Cert.KernelIdeal.Stage.keys A))))
      = Cert.KernelIdeal.Stage.deg A := by
  rw [sortedRows_eq, sortedKeys_eq, isFirst_eq]
  rfl

/-- The inverse square roots: the kernel's padded, re-laid, cut-back pallas_call result is the reference's expression. -/
theorem dis_eq (A : IVec S2x3200000 32) :
    Cert.KernelIdeal.Stage.dis (Cert.KernelIdeal.Gen.k0_pay1 (F := Ideal) (Cert.KernelIdeal.Stage.degPad A))
      = Cert.ReferenceIdeal.Stage.disOf (F := Ideal) (Cert.KernelIdeal.Stage.deg A) :=
  Cert.DegInvSqrt.dis_eq (Cert.KernelIdeal.Stage.deg A)

/-- THE VALUES RESULT of the two programs is one function of an edge array with entries in range. -/
theorem out0_eq (A : IVec S2x3200000 32) (hA : ∀ j : S2x3200000.Idx, 0 ≤ (A j).toInt ∧ (A j).toInt < 100000) :
    Cert.KernelIdeal.Stage.out0 (Cert.KernelIdeal.Gen.k0_pay1 (F := Ideal) (Cert.KernelIdeal.Stage.degPad A)) (Cert.KernelIdeal.Stage.row A) (Cert.KernelIdeal.Stage.col A)
      = Cert.ReferenceIdeal.Stage.out0 (F := Ideal) A := by
  unfold Cert.KernelIdeal.Stage.out0 Cert.ReferenceIdeal.Stage.out0 Cert.ReferenceIdeal.Stage.out0Of Cert.ReferenceIdeal.Stage.prodOf
  rw [Cert.TakeInRange.take_eq_gather _ _ (Cert.TakeInRange.row_range A hA),
    Cert.TakeInRange.take_eq_gather _ _ (Cert.TakeInRange.col_range A hA), dis_eq, deg_eq]
  rfl

end Cert.Bridge

end
-- ==== Proof.PreRange.lean ====
import proofs.«408142_j59356448031141_3_alg».proof.Pre_finite_inputs
import proofs.«408142_j59356448031141_3_alg».proof.Proof.Gen.Pre_finite_inputs
import Idealize.ShloMosaic.Lib.StableHlo.Predicate
import Idealize.ShloMosaic.Lib.ReduceAll

noncomputable section

namespace Cert.PreRange

open Idealize.ShloMosaic Cert.Pre_finite_inputs

/-- The shape of rank zero has one index. -/
instance subsingleton_scalar_idx : Subsingleton S_.Idx := ⟨fun _ _ => funext fun d => d.elim0⟩

/-- What the precondition says of the edge array: every entry, read as a signed word, is a node number in [0, 100000).
    The precondition is the `and` of two all-axes `and`-reductions; its second factor being 1 makes every entry of the
    reduced mask 1, and that entry is the `and` of the two signed compares `0 ≤ A j` and `A j < 100000`. -/
theorem index_range {F : FTy → Type} [FloatOps F] (x : FVec F S100000x128 .f32) (A : IVec S2x3200000 32)
    (h : Cert.Pre_finite_inputs.fn (F := F) x A = fun _ => 1#1) :
    ∀ j : S2x3200000.Idx, 0 ≤ (A j).toInt ∧ (A j).toInt < 100000 := by
  intro j
  have h0 := congrFun h (fun a => a.elim0)
  dsimp only [Cert.Pre_finite_inputs.fn] at h0
  change IntOp.andi _ _ = 1#1 at h0
  have h9 := (IntOp.andi_eq_one.1 h0).2
  have hj := Host.reduce_andi_all _ _ _ _ _ h9 j
  change IntOp.andi (IntOp.cmpi .sge (A j) _) (IntOp.cmpi .slt (A j) _) = 1#1 at hj
  obtain ⟨hge, hlt⟩ := IntOp.andi_eq_one.1 hj
  rw [StableHlo.Predicate.bcast_scalar _ Facts.h_S_] at hge hlt
  have hz : (0#32 : BitVec 32).toInt = 0 := by decide
  have hc : (100000#32 : BitVec 32).toInt = 100000 := by decide
  have e1 := IntOp.cmpi_sge.1 hge
  have e2 := IntOp.cmpi_slt.1 hlt
  simp only [constantI] at e1 e2
  rw [hz] at e1
  rw [hc] at e2
  exact ⟨e1, e2⟩

end Cert.PreRange

end
-- ==== Proof.lean ====
/-
  The certificate of the sparse-normalization kernel against its jnp reference, over the extended reals.

  Both programs build the sparse Laplacian I − D^(-1/2) A D^(-1/2) in COO form from an edge array A (2 × 3200000 node numbers):
  100000 ones, then for each edge −dis[row] · dis[col], where dis = deg > 0 ? rsqrt (max (deg, 1)) : 0 and deg counts the distinct
  edges leaving each node (a stable sort of the combined key row · 100000 + col, a flag at the first of each run of equal keys, a
  scatter-add of the flags into their rows). The kernel carries the rows through ONE two-operand sort, computes dis in a
  pallas_call over the degrees padded to 784 × 128, and reads dis with jnp.take, which fills out-of-range reads with a NaN pattern;
  the reference argsorts and gathers, computes dis on the host, and indexes, which clamps. On edge arrays whose entries are node
  numbers in [0, 100000) — the precondition's second conjunct: the range the reference's own indexing takes for granted — the fill
  is never used and the two programs compute one function (Proof/Bridge.lean); outside that range they differ (the fill pattern
  reads as −∞ at the ideal instance, the clamped read as a finite number).

  The frames of the two kernel programs are the generated ones; the reference's is its run with the results dropped. The ideal
  pass rewrote nothing, so there is nothing to preserve. For the algebraic claim the kernel program's run (the generated frame run,
  its pallas_call's result array read as the body's arithmetic of the whole input array, the host operations around it read list by
  list) and the reference's run (read stretch by stretch) end at the same two arrays.
-/
import proofs.«408142_j59356448031141_3_alg».proof.Defs
import proofs.«408142_j59356448031141_3_alg».proof.Proof.Gen.Kernel
import proofs.«408142_j59356448031141_3_alg».proof.Proof.Gen.Kernel.Skeleton
import proofs.«408142_j59356448031141_3_alg».proof.Proof.Gen.Kernel.Launch
import proofs.«408142_j59356448031141_3_alg».proof.Proof.Gen.Kernel.Points
import proofs.«408142_j59356448031141_3_alg».proof.Proof.Gen.Kernel.Frame
import proofs.«408142_j59356448031141_3_alg».proof.Proof.Gen.KernelIdeal
import proofs.«408142_j59356448031141_3_alg».proof.Proof.Gen.KernelIdeal.Skeleton
import proofs.«408142_j59356448031141_3_alg».proof.Proof.Gen.KernelIdeal.Launch
import proofs.«408142_j59356448031141_3_alg».proof.Proof.Gen.KernelIdeal.Points
import proofs.«408142_j59356448031141_3_alg».proof.Proof.Gen.KernelIdeal.Frame
import proofs.«408142_j59356448031141_3_alg».proof.Proof.Gen.ReferenceIdeal
import proofs.«408142_j59356448031141_3_alg».proof.Proof.Gen.Pre_finite_inputs
import proofs.«408142_j59356448031141_3_alg».proof.Proof.KernelRun
import proofs.«408142_j59356448031141_3_alg».proof.Proof.RefStages
import proofs.«408142_j59356448031141_3_alg».proof.Proof.Bridge
import proofs.«408142_j59356448031141_3_alg».proof.Proof.PreRange
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run with the two results dropped. -/
theorem frame_referenceIdeal : Cert.frame_ReferenceIdeal := fun m ρ _ =>
  (θ_run Cert.ReferenceIdeal.defs _ _).mono (fun _ h c => (h c).2.2) (Cert.ReferenceIdeal.Stages.run (F := Ideal) m ρ)

/-- The ideal pass rewrote no operation. -/
theorem preserves : Cert.preserves_Kernel_KernelIdeal := trivial

/-- Both runs end at the reference's two stage functions of the edge array: the reference's by its run, the kernel's by its
    run and the bridge, the precondition supplying the node range. -/
theorem algebraic : Cert.algebraic_KernelIdeal_ReferenceIdeal := by
  intro m ρ m' ρ' hpre hagree
  refine ⟨fun c => Cert.ReferenceIdeal.Stage.out0 (F := Ideal) (m ((c.tc : Thread Cert.KernelIdeal.nD Cert.KernelIdeal.τ).loc Cert.KernelIdeal.main_arg1)),
    fun c => Cert.KernelIdeal.Stage.out1 (m ((c.tc : Thread Cert.KernelIdeal.nD Cert.KernelIdeal.τ).loc Cert.KernelIdeal.main_arg1)), ?_, ?_⟩
  · refine (θ_run Cert.KernelIdeal.defs _ _).mono (fun _ h c => ⟨(h c).1.trans ?_, (h c).2.1, (h c).2.2.1, (h c).2.2.2⟩)
      (Cert.KernelIdeal.HostRun.run (F := Ideal) m ρ)
    exact Cert.Bridge.out0_eq _ (Cert.PreRange.index_range _ _ (hpre c))
  · refine (θ_run Cert.ReferenceIdeal.defs _ _).mono (fun _ h c => ⟨(h c).1.trans ?_, (h c).2.1.trans ?_, (h c).2.2.1, (h c).2.2.2⟩)
      (Cert.ReferenceIdeal.Stages.run (F := Ideal) m' ρ')
    · rw [(hagree c).2]
    · rw [(hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
